-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64 : Shape := ⟨1, ![64]⟩
abbrev S10000x64 : Shape := ⟨2, ![10000, 64]⟩
abbrev S12000x64 : Shape := ⟨2, ![12000, 64]⟩
abbrev S10000x12000 : Shape := ⟨2, ![10000, 12000]⟩
abbrev S_ : Shape := ⟨0, ![]⟩

class Facts : Prop where
  bcast_S_S64 : S_.BroadcastsInDim S64 (![] : Fin 0 → Fin S64.rank)
  reducesTo_S64_S_d0 : S64.ReducesTo [0] S_
  h_S_ : 0 < S_.numel
  bcast_S_S10000x64 : S_.BroadcastsInDim S10000x64 (![] : Fin 0 → Fin S10000x64.rank)
  reducesTo_S10000x64_S_d0_1 : S10000x64.ReducesTo [0, 1] S_
  bcast_S_S12000x64 : S_.BroadcastsInDim S12000x64 (![] : Fin 0 → Fin S12000x64.rank)
  reducesTo_S12000x64_S_d0_1 : S12000x64.ReducesTo [0, 1] S_
  bcast_S_S10000x12000 : S_.BroadcastsInDim S10000x12000 (![] : Fin 0 → Fin S10000x12000.rank)
  reducesTo_S10000x12000_S_d0_1 : S10000x12000.ReducesTo [0, 1] S_

variable [Facts]

def fn_part1 {F : FTy → Type} [FloatOps F] (main_arg4 : FVec F S10000x12000 .f32) (main_v13 : IVec S_ 1) (main_v16 : IVec S10000x12000 1) : IVec S_ 1 :=
  let main_c_5 : IVec S_ 1 := constantI S_ 1 1#1
  let main_v17 : IVec S_ 1 := (fun x v => Host.reduce IntOp.andi x v reducesTo_S10000x12000_S_d0_1 h_S_) main_v16 main_c_5
  let main_v18 : IVec S_ 1 := andi main_v13 main_v17
  let main_v19 : FVec F S10000x12000 .f32 := Host.absf main_arg4
  let main_cst_6 : FVec F S_ .f32 := constant S_ .f32 0x7F800000#32
  let main_v20 : FVec F S10000x12000 .f32 := broadcastInDim S10000x12000 ![] bcast_S_S10000x12000 main_cst_6
  let main_v21 : IVec S10000x12000 1 := cmpf .olt main_v19 main_v20
  let main_c_7 : IVec S_ 1 := constantI S_ 1 1#1
  let main_v22 : IVec S_ 1 := (fun x v => Host.reduce IntOp.andi x v reducesTo_S10000x12000_S_d0_1 h_S_) main_v21 main_c_7
  let main_v23 : IVec S_ 1 := andi main_v18 main_v22
  main_v23

def fn {F : FTy → Type} [FloatOps F] (main_arg0 : FVec F S64 .f32) (main_arg1 : FVec F S10000x64 .f32) (main_arg2 : FVec F S12000x64 .f32) (main_arg3 : FVec F S10000x12000 .f32) (main_arg4 : FVec F S10000x12000 .f32) : IVec S_ 1 :=
  let main_v0 : FVec F S64 .f32 := Host.absf main_arg0
  let main_cst : FVec F S_ .f32 := constant S_ .f32 0x7F800000#32
  let main_v1 : FVec F S64 .f32 := broadcastInDim S64 ![] bcast_S_S64 main_cst
  let main_v2 : IVec S64 1 := cmpf .olt main_v0 main_v1
  let main_c : IVec S_ 1 := constantI S_ 1 1#1
  let main_v3 : IVec S_ 1 := (fun x v => Host.reduce IntOp.andi x v reducesTo_S64_S_d0 h_S_) main_v2 main_c
  let main_v4 : FVec F S10000x64 .f32 := Host.absf main_arg1
  let main_cst_0 : FVec F S_ .f32 := constant S_ .f32 0x7F800000#32
  let main_v5 : FVec F S10000x64 .f32 := broadcastInDim S10000x64 ![] bcast_S_S10000x64 main_cst_0
  let main_v6 : IVec S10000x64 1 := cmpf .olt main_v4 main_v5
  let main_c_1 : IVec S_ 1 := constantI S_ 1 1#1
  let main_v7 : IVec S_ 1 := (fun x v => Host.reduce IntOp.andi x v reducesTo_S10000x64_S_d0_1 h_S_) main_v6 main_c_1
  let main_v8 : IVec S_ 1 := andi main_v3 main_v7
  let main_v9 : FVec F S12000x64 .f32 := Host.absf main_arg2
  let main_cst_2 : FVec F S_ .f32 := constant S_ .f32 0x7F800000#32
  let main_v10 : FVec F S12000x64 .f32 := broadcastInDim S12000x64 ![] bcast_S_S12000x64 main_cst_2
  let main_v11 : IVec S12000x64 1 := cmpf .olt main_v9 main_v10
  let main_c_3 : IVec S_ 1 := constantI S_ 1 1#1
  let main_v12 : IVec S_ 1 := (fun x v => Host.reduce IntOp.andi x v reducesTo_S12000x64_S_d0_1 h_S_) main_v11 main_c_3
  let main_v13 : IVec S_ 1 := andi main_v8 main_v12
  let main_v14 : FVec F S10000x12000 .f32 := Host.absf main_arg3
  let main_cst_4 : FVec F S_ .f32 := constant S_ .f32 0x7F800000#32
  let main_v15 : FVec F S10000x12000 .f32 := broadcastInDim S10000x12000 ![] bcast_S_S10000x12000 main_cst_4
  let main_v16 : IVec S10000x12000 1 := cmpf .olt main_v14 main_v15
  fn_part1 (F := F) main_arg4 main_v13 main_v16
-- ==== Kernel.lean ====
abbrev S64 : Shape := ⟨1, ![64]⟩
abbrev S10000x64 : Shape := ⟨2, ![10000, 64]⟩
abbrev S12000x64 : Shape := ⟨2, ![12000, 64]⟩
abbrev S10000x12000 : Shape := ⟨2, ![10000, 12000]⟩
abbrev S_ : Shape := ⟨0, ![]⟩
abbrev S200x12000 : Shape := ⟨2, ![200, 12000]⟩
abbrev S200x64 : Shape := ⟨2, ![200, 64]⟩
abbrev S1x64 : Shape := ⟨2, ![1, 64]⟩
abbrev S64x12000 : Shape := ⟨2, ![64, 12000]⟩

abbrev nBuf : Space → Nat
  | .hbm => 11
  | .vmem => 17
  | .smem => 0
  | _ => 0

abbrev bufTy : (tb : Table) → Fin (tcTables nBuf tb) → BufTy
  | .hbm, ⟨0, _⟩ => ⟨S64, .f32⟩
  | .hbm, ⟨1, _⟩ => ⟨S10000x64, .f32⟩
  | .hbm, ⟨2, _⟩ => ⟨S12000x64, .f32⟩
  | .hbm, ⟨3, _⟩ => ⟨S10000x12000, .f32⟩
  | .hbm, ⟨4, _⟩ => ⟨S10000x12000, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S10000x64, .f32⟩
  | .hbm, ⟨9, _⟩ => ⟨S64x12000, .f32⟩
  | .hbm, ⟨10, _⟩ => ⟨S10000x12000, .f32⟩
  | .local _ .vmem, ⟨0, _⟩ => ⟨S200x12000, .f32⟩
  | .local _ .vmem, ⟨1, _⟩ => ⟨S200x12000, .f32⟩
  | .local _ .vmem, ⟨2, _⟩ => ⟨S12000x64, .f32⟩
  | .local _ .vmem, ⟨3, _⟩ => ⟨S64, .f32⟩
  | .local _ .vmem, ⟨4, _⟩ => ⟨S200x64, .f32⟩
  | .local _ .vmem, ⟨5, _⟩ => ⟨S200x64, .f32⟩
  | .local _ .vmem, ⟨6, _⟩ => ⟨S200x64, .f32⟩
  | .local _ .vmem, ⟨7, _⟩ => ⟨S200x64, .f32⟩
  | .local _ .vmem, ⟨8, _⟩ => ⟨S200x12000, .f32⟩
  | .local _ .vmem, ⟨9, _⟩ => ⟨S200x12000, .f32⟩
  | .local _ .vmem, ⟨10, _⟩ => ⟨S64x12000, .f32⟩
  | .local _ .vmem, ⟨11, _⟩ => ⟨S64x12000, .f32⟩
  | .local _ .vmem, ⟨12, _⟩ => ⟨S200x64, .f32⟩
  | .local _ .vmem, ⟨13, _⟩ => ⟨S200x64, .f32⟩
  | .local _ .vmem, ⟨14, _⟩ => ⟨S64x12000, .f32⟩
  | .local _ .vmem, ⟨15, _⟩ => ⟨S200x12000, .f32⟩
  | .local _ .vmem, ⟨16, _⟩ => ⟨S200x12000, .f32⟩
  | _, _ => ⟨S64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x12000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12000x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S200x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def k1_cond2 (i : grid1.Coords) : BitVec 1 :=
  let arg0 : BitVec 32 := BitVec.ofNat 32 (i 0).val
  let c49_i32 : BitVec 32 := 49#32
  let v13 : BitVec 1 := Scalar.cmpi .eq arg0 c49_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S200x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S200x12000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x12000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x12000 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S200x12000 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  bcast_S_S64 : S_.BroadcastsInDim S64 (![] : Fin 0 → Fin S64.rank)
  inb_S200x12000_S200x12000_0_0 : ∀ a, (![0, 0] : Fin 2 → Nat) a + S200x12000.size a ≤ S200x12000.size a
  h_S200x12000 : 0 < S200x12000.numel
  bitsLt_bf16_f32 : FTy.bits .bf16 < FTy.bits .f32
  inb_S12000x64_S12000x64_0_0 : ∀ a, (![0, 0] : Fin 2 → Nat) a + S12000x64.size a ≤ S12000x64.size a
  h_S12000x64 : 0 < S12000x64.numel
  inb_S64_S64_0 : ∀ a, (![0] : Fin 1 → Nat) a + S64.size a ≤ S64.size a
  h_S64 : 0 < S64.numel
  shapeCasts_S64_S64 : S64.ShapeCasts S64
  shapeCasts_S64_S1x64 : S64.ShapeCasts S1x64
  broadcasts_S1x64_S200x64 : S1x64.Broadcasts S200x64
  inb_S200x64_S200x64_0_0 : ∀ a, (![0, 0] : Fin 2 → Nat) a + S200x64.size a ≤ S200x64.size a
  h_S200x64 : 0 < S200x64.numel
  inb_S64x12000_S64x12000_0_0 : ∀ a, (![0, 0] : Fin 2 → Nat) a + S64x12000.size a ≤ S64x12000.size a
  h_S64x12000 : 0 < S64x12000.numel
  shapeCasts_S64x12000_S64x12000 : S64x12000.ShapeCasts S64x12000
  shapeCasts_S200x64_S200x64 : S200x64.ShapeCasts S200x64
  dot_S200x12000_S12000x64_S200x64_1_0_0_1_n_n_wf : DotDims.WF S200x12000 S12000x64 S200x64 [1] [0] [0] [1] [] []
  dot_S200x64_S200x12000_S64x12000_0_0_1_1_n_n_wf : DotDims.WF S200x64 S200x12000 S64x12000 [0] [0] [1] [1] [] []
  dot_S200x64_S64x12000_S200x12000_1_0_0_1_n_n_wf : DotDims.WF S200x64 S64x12000 S200x12000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x12000.size a ≤ S10000x12000.size a
  hwx0_0 : ∀ i : grid0.Coords, EltTy.bits .f32 = 32 ∨ (Rect.block (s := S10000x12000) S200x12000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12000x64.size a ≤ S12000x64.size a
  hwx0_1 : ∀ i : grid0.Coords, EltTy.bits .f32 = 32 ∨ (Rect.block (s := S12000x64) S12000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x64.size a ≤ S10000x64.size a
  hwx0_3 : ∀ i : grid0.Coords, EltTy.bits .f32 = 32 ∨ (Rect.block (s := S10000x64) S200x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x64.size a ≤ S10000x64.size a
  hwx1_0 : ∀ i : grid1.Coords, EltTy.bits .f32 = 32 ∨ (Rect.block (s := S10000x64) S200x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x12000.size a ≤ S10000x12000.size a
  hwx1_1 : ∀ i : grid1.Coords, EltTy.bits .f32 = 32 ∨ (Rect.block (s := S10000x12000) S200x12000.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x12000.size a ≤ S64x12000.size a
  hwx1_2 : ∀ i : grid1.Coords, EltTy.bits .f32 = 32 ∨ (Rect.block (s := S64x12000) S64x12000.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x64.size a ≤ S10000x64.size a
  hwx2_0 : ∀ i : grid2.Coords, EltTy.bits .f32 = 32 ∨ (Rect.block (s := S10000x64) S200x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x12000.size a ≤ S64x12000.size a
  hwx2_1 : ∀ i : grid2.Coords, EltTy.bits .f32 = 32 ∨ (Rect.block (s := S64x12000) S64x12000.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S200x12000.size a ≤ S10000x12000.size a
  hwx2_2 : ∀ i : grid2.Coords, EltTy.bits .f32 = 32 ∨ (Rect.block (s := S10000x12000) S200x12000.size (cc2_transform_2 i) (hinb2_2 i)).WholeWords (EltTy.packing .f32)

variable [Facts₀]

def dot_S200x12000_S12000x64_S200x64_1_0_0_1_n_n : DotDims S200x12000 S12000x64 S200x64 where
  lhsContracting := [1]
  rhsContracting := [0]
  lhsNonContracting := [0]
  rhsNonContracting := [1]
  lhsBatch := []
  rhsBatch := []
  wf := dot_S200x12000_S12000x64_S200x64_1_0_0_1_n_n_wf
def dot_S200x64_S200x12000_S64x12000_0_0_1_1_n_n : DotDims S200x64 S200x12000 S64x12000 where
  lhsContracting := [0]
  rhsContracting := [0]
  lhsNonContracting := [1]
  rhsNonContracting := [1]
  lhsBatch := []
  rhsBatch := []
  wf := dot_S200x64_S200x12000_S64x12000_0_0_1_1_n_n_wf
def dot_S200x64_S64x12000_S200x12000_1_0_0_1_n_n : DotDims S200x64 S64x12000 S200x12000 where
  lhsContracting := [1]
  rhsContracting := [0]
  lhsNonContracting := [0]
  rhsNonContracting := [1]
  lhsBatch := []
  rhsBatch := []
  wf := dot_S200x64_S64x12000_S200x12000_1_0_0_1_n_n_wf

abbrev win0_0 : Pipeline.Window sig grid0 :=
  Pipeline.Window.ofSpec (Memref.whole main_arg4) S200x12000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S12000x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S200x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S200x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S200x12000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S64x12000.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v2) S200x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S64x12000.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S200x12000.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S64 : Shape := ⟨1, ![64]⟩
abbrev S10000x64 : Shape := ⟨2, ![10000, 64]⟩
abbrev S12000x64 : Shape := ⟨2, ![12000, 64]⟩
abbrev S10000x12000 : Shape := ⟨2, ![10000, 12000]⟩
abbrev S_ : Shape := ⟨0, ![]⟩
abbrev S64x10000 : Shape := ⟨2, ![64, 10000]⟩
abbrev S64x12000 : Shape := ⟨2, ![64, 12000]⟩
abbrev S1x64 : Shape := ⟨2, ![1, 64]⟩

abbrev nBuf : Space → Nat
  | .hbm => 15
  | .vmem => 0
  | .smem => 0
  | _ => 0

abbrev bufTy : (tb : Table) → Fin (tcTables nBuf tb) → BufTy
  | .hbm, ⟨0, _⟩ => ⟨S64, .f32⟩
  | .hbm, ⟨1, _⟩ => ⟨S10000x64, .f32⟩
  | .hbm, ⟨2, _⟩ => ⟨S12000x64, .f32⟩
  | .hbm, ⟨3, _⟩ => ⟨S10000x12000, .f32⟩
  | .hbm, ⟨4, _⟩ => ⟨S10000x12000, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S10000x64, .f32⟩
  | .hbm, ⟨9, _⟩ => ⟨S64x10000, .f32⟩
  | .hbm, ⟨10, _⟩ => ⟨S64x12000, .f32⟩
  | .hbm, ⟨11, _⟩ => ⟨S1x64, .f32⟩
  | .hbm, ⟨12, _⟩ => ⟨S10000x64, .f32⟩
  | .hbm, ⟨13, _⟩ => ⟨S10000x64, .f32⟩
  | .hbm, ⟨14, _⟩ => ⟨S10000x12000, .f32⟩
  | _, _ => ⟨S64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S_S64 : S_.BroadcastsInDim S64 (![] : Fin 0 → Fin S64.rank)
  transposes_S10000x64_S64x10000_1_0 : S10000x64.Transposes [1, 0] S64x10000
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  dot_S10000x12000_S12000x64_S10000x64_1_0_0_1_n_n_wf : DotDims.WF S10000x12000 S12000x64 S10000x64 [1] [0] [0] [1] [] []
  dot_S64x10000_S10000x12000_S64x12000_1_0_0_1_n_n_wf : DotDims.WF S64x10000 S10000x12000 S64x12000 [1] [0] [0] [1] [] []
  dot_S10000x64_S64x12000_S10000x12000_1_0_0_1_n_n_wf : DotDims.WF S10000x64 S64x12000 S10000x12000 [1] [0] [0] [1] [] []

variable [Facts₀]

def dot_S10000x12000_S12000x64_S10000x64_1_0_0_1_n_n : DotDims S10000x12000 S12000x64 S10000x64 where
  lhsContracting := [1]
  rhsContracting := [0]
  lhsNonContracting := [0]
  rhsNonContracting := [1]
  lhsBatch := []
  rhsBatch := []
  wf := dot_S10000x12000_S12000x64_S10000x64_1_0_0_1_n_n_wf
def dot_S64x10000_S10000x12000_S64x12000_1_0_0_1_n_n : DotDims S64x10000 S10000x12000 S64x12000 where
  lhsContracting := [1]
  rhsContracting := [0]
  lhsNonContracting := [0]
  rhsNonContracting := [1]
  lhsBatch := []
  rhsBatch := []
  wf := dot_S64x10000_S10000x12000_S64x12000_1_0_0_1_n_n_wf
def dot_S10000x64_S64x12000_S10000x12000_1_0_0_1_n_n : DotDims S10000x64 S64x12000 S10000x12000 where
  lhsContracting := [1]
  rhsContracting := [0]
  lhsNonContracting := [0]
  rhsNonContracting := [1]
  lhsBatch := []
  rhsBatch := []
  wf := dot_S10000x64_S64x12000_S10000x12000_1_0_0_1_n_n_wf

class Facts : Prop extends Facts₀ where

variable [Facts]
-- ==== Proof.K_RegionA.lean ====
/-
  The first pallas_call: `left_scaled = (norm_adj @ item_sv) · (1/lambda)`, one tile of 200 user rows per grid point.

  At grid point `t` the body reads three staged blocks — rows `200·t … 200·t + 199` of `norm_adj` (all 12000 columns),
  the whole of `item_sv`, the whole reciprocal vector — and stores ONE value into its output block: the product of the
  row tile with `item_sv`, each column scaled by its reciprocal singular value. Nothing is carried from point to point,
  so the call's state between points is just "every buffer that is not being staged, at some contents". This module
  states what the body leaves in each staging buffer as a function of the blocks it found, runs the body once on
  abstract buffers, and packages that as the per-point obligation of the pipelined call, for any contents `V` of the
  arrays at entry and at any float instance.
-/
import proofs.«105441_j37701222924909_1_alg».proof.Proof.Gen.Kernel.Launch
import proofs.«105441_j37701222924909_1_alg».proof.Proof.Gen.Kernel.Skeleton
import proofs.«105441_j37701222924909_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The windows' blocks -/

/-- Window `w`'s block at point `t`, read off its array as the call finds it. -/
def blkA (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not
    fetched its block index has not moved. Stated for any proof data whose arrays are `V`'s and whose body leaves the
    inputs in place; one statement per input window. -/
theorem beforeA_0_of {c : Dev nD} (dat : Dat τ (Elt F) Unit ℕ (UR sig nD τ) ℕ cfg0 c) (hA : dat.A 0 = V c (Pipeline.arrRef spec0 0))
    (hafter : ∀ t, dat.after 0 t = blkA V c 0 t) (t : Fin cfg0.N) (d) : dat.before 0 t d = blkA V c 0 t :=
  (dat.before_in_eq_fetched 0 rfl (fun _ => rfl) (fun _ _ _ => rfl) (fun t => by rw [hafter]; unfold Dat.blockOf blkA; rw [hA]; try rfl) t d).trans
    (by unfold Dat.fetched Dat.blockOf blkA; rw [hA]; try rfl)
theorem beforeA_1_of {c : Dev nD} (dat : Dat τ (Elt F) Unit ℕ (UR sig nD τ) ℕ cfg0 c) (hA : dat.A 1 = V c (Pipeline.arrRef spec0 1))
    (hafter : ∀ t, dat.after 1 t = blkA V c 1 t) (t : Fin cfg0.N) (d) : dat.before 1 t d = blkA V c 1 t :=
  (dat.before_in_eq_fetched 1 rfl (fun _ => rfl) (fun _ _ _ => rfl) (fun t => by rw [hafter]; unfold Dat.blockOf blkA; rw [hA]; try rfl) t d).trans
    (by unfold Dat.fetched Dat.blockOf blkA; rw [hA]; try rfl)
theorem beforeA_2_of {c : Dev nD} (dat : Dat τ (Elt F) Unit ℕ (UR sig nD τ) ℕ cfg0 c) (hA : dat.A 2 = V c (Pipeline.arrRef spec0 2))
    (hafter : ∀ t, dat.after 2 t = blkA V c 2 t) (t : Fin cfg0.N) (d) : dat.before 2 t d = blkA V c 2 t :=
  (dat.before_in_eq_fetched 2 rfl (fun _ => rfl) (fun _ _ _ => rfl) (fun t => by rw [hafter]; unfold Dat.blockOf blkA; rw [hA]; try rfl) t d).trans
    (by unfold Dat.fetched Dat.blockOf blkA; rw [hA]; try rfl)

/-! ## What the body stores -/

/-- The whole 200 × 64 output block. -/
abbrev rA : Rect S200x64 := Rect.unit (s := S200x64) ![0, 0] S200x64.size inb_S200x64_S200x64_0_0

/-- The output block after the body, from the three input blocks: its one store. -/
def outA (x0 : Vec F S200x12000 .f32) (x1 : Vec F S12000x64 .f32) (x2 : Vec F S64 .f32) : Vec F S200x64 .f32 :=
  View.canon [⟨rA, k0_pay1 (View.ld x0 (Rect.unit (s := S200x12000) ![0, 0] S200x12000.size inb_S200x12000_S200x12000_0_0))
    (View.ld x1 (Rect.unit (s := S12000x64) ![0, 0] S12000x64.size inb_S12000x64_S12000x64_0_0))
    (View.ld x2 (Rect.unit (s := S64) ![0] S64.size inb_S64_S64_0))⟩]

/-- The one store covers the block. -/
theorem coverA (p0 : Vec F S200x64 .f32) (y : S200x64.Idx) :
    ∃ pc ∈ ([⟨rA, p0⟩] : List (View.Piece (Elt F) S200x64 .f32)), y ∈ pc.1.set :=
  View.cover_of_tiled [⟨rA, p0⟩] S200x64.size (by rfl) y

/-! ## The body, run once on abstract buffers -/

set_option maxHeartbeats 1000000 in
/-- On whole staging buffers, the inputs' at contents `x0 x1 x2` and the output's at anything, the body runs to the
    continuation with the inputs as they were and the output at `outA x0 x1 x2`. -/
theorem sound_kernelA (c : Dev nD) (E : Set ℕ) (i : grid0.Coords)
    (arg1 : Memref sig .tc .vmem S200x12000 .f32) (harg1 : arg1.IsWhole) (arg2 : Memref sig .tc .vmem S12000x64 .f32) (harg2 : arg2.IsWhole)
    (arg3 : Memref sig .tc .vmem S64 .f32) (harg3 : arg3.IsWhole) (arg4 : Memref sig .tc .vmem S200x64 .f32) (harg4 : arg4.IsWhole)
    (x0 : Vec F S200x12000 .f32) (x1 : Vec F S12000x64 .f32) (x2 : Vec F S64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outA x0 x1 x2)) -∗ K ⟨⟩))
      ⊢ wp frame (wpE (defs₀ (F := F)) Variants.none c none) E (cc0__kernel_a i arg1 harg1 arg2 harg2 arg3 harg3 arg4 harg4) K := by
  simp only [cc0__kernel_a_eq_skeleton]; unfold cc0__kernel_a_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverA _)

/-! ## The call's proof data -/

/-- The arrays as the call finds them; after the body at point `t` each input's buffer at its block and the output's at
    `outA` of the input blocks; between points nothing of the call's own is kept; nothing owed; full shares. -/
def datA (c : Dev nD) : Dat τ (Elt F) Unit ℕ (UR sig nD τ) ℕ cfg0 c where
  A w := V c (Pipeline.arrRef spec0 w)
  after w t := match w with
    | ⟨0, _⟩ => blkA V c 0 t
    | ⟨1, _⟩ => blkA V c 1 t
    | ⟨2, _⟩ => blkA V c 2 t
    | ⟨3, _⟩ => outA (blkA V c 0 t) (blkA V c 1 t) (blkA V c 2 t)
  Φ _ := Pipeline.ΦA spec0 c
  q _ := fullShare
  owed _ := 0

theorem A_eqA (c : Dev nD) (w : Fin cfg0.W) : (datA V c).A w = V c (Pipeline.arrRef spec0 w) := by
  dsimp only [datA]

theorem afterA_0 (c : Dev nD) (t : Fin cfg0.N) : (datA V c).after 0 t = blkA V c 0 t := by dsimp only [datA]
theorem afterA_1 (c : Dev nD) (t : Fin cfg0.N) : (datA V c).after 1 t = blkA V c 1 t := by dsimp only [datA]
theorem afterA_2 (c : Dev nD) (t : Fin cfg0.N) : (datA V c).after 2 t = blkA V c 2 t := by dsimp only [datA]
theorem afterA_3 (c : Dev nD) (t : Fin cfg0.N) :
    (datA V c).after 3 t = outA (blkA V c 0 t) (blkA V c 1 t) (blkA V c 2 t) := by dsimp only [datA]

theorem beforeA_0 (c : Dev nD) (t : Fin cfg0.N) (d) : (datA V c).before 0 t d = blkA V c 0 t :=
  beforeA_0_of V (datA V c) (A_eqA V c 0) (afterA_0 V c) t d
theorem beforeA_1 (c : Dev nD) (t : Fin cfg0.N) (d) : (datA V c).before 1 t d = blkA V c 1 t :=
  beforeA_1_of V (datA V c) (A_eqA V c 1) (afterA_1 V c) t d
theorem beforeA_2 (c : Dev nD) (t : Fin cfg0.N) (d) : (datA V c).before 2 t d = blkA V c 2 t :=
  beforeA_2_of V (datA V c) (A_eqA V c 2) (afterA_2 V c) t d

/-! ## The per-point obligation -/

/-- What the body is called with at point `t`, the windows one by one, -/
def bodyPreA (c : Dev nD) (t : Fin cfg0.N) : sProp 𝕄 :=
  iprop((datA V c).Φ t.castSucc ∗ (datA V c).owesAt () t.castSucc
    ∗ (∃ d, owns (c : Thread nD τ) (st0_0 t) fullShare ((datA V c).before 0 t d))
    ∗ (∃ d, owns (c : Thread nD τ) (st0_1 t) fullShare ((datA V c).before 1 t d))
    ∗ (∃ d, owns (c : Thread nD τ) (st0_2 t) fullShare ((datA V c).before 2 t d))
    ∗ (∃ d, owns (c : Thread nD τ) (st0_3 t) fullShare ((datA V c).before 3 t d)))

/-- and what it returns. -/
def bodyPostA (c : Dev nD) (t : Fin cfg0.N) : sProp 𝕄 :=
  iprop((datA V c).Φ t.succ ∗ (datA V c).owesAt () t.succ
    ∗ owns (c : Thread nD τ) (st0_0 t) fullShare ((datA V c).after 0 t)
    ∗ owns (c : Thread nD τ) (st0_1 t) fullShare ((datA V c).after 1 t)
    ∗ owns (c : Thread nD τ) (st0_2 t) fullShare ((datA V c).after 2 t)
    ∗ owns (c : Thread nD τ) (st0_3 t) fullShare ((datA V c).after 3 t))

/-- The body at any point: the inputs' buffers hold their blocks, so the run above applies; the state between points
    and what the core owes pass through unread. -/
theorem sound_bodyA (c : Dev nD) (t : Fin cfg0.N) :
    bodyPreA V c t ⊢ wp frame (wpE (defs₀ (F := F)) Variants.none c none) Set.univ (bodyAt0 t) (fun _ => bodyPostA V c t) := by
  unfold bodyPreA bodyPostA bodyAt0
  simp only [beforeA_0, beforeA_1, beforeA_2]
  rw [show (datA V c).Φ t.succ = (datA V c).Φ t.castSucc from rfl,
    show (datA V c).owesAt () t.succ = (datA V c).owesAt () t.castSucc from rfl,
    afterA_0, afterA_1, afterA_2, afterA_3]
  iintro ⟨HΦ, Ho, ⟨%d0, H0⟩, ⟨%d1, H1⟩, ⟨%d2, H2⟩, ⟨%d3, H3⟩⟩
  iapply (sound_kernelA c Set.univ _ _ _ _ _ _ _ _ _ (blkA V c 0 t) (blkA V c 1 t) (blkA V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipelined call's obligation, at every point. -/
theorem body_obligationA (c : Dev nD) : BodyObligation (datA (F := F) V c) (defs₀ (F := F)) Variants.none () Set.univ := fun t => by
  rw [bigSep_W0, bigSep_W0]
  exact sound_bodyA V c t

end Cert.Kernel.Frame

end
-- ==== Proof.K_RegionB.lean ====
/-
  The second pallas_call: `right = user_svᵀ @ adj`, accumulated over the 50 tiles of the user axis in a scratch.

  At grid point `t` the body reads rows `200·t … 200·t + 199` of `user_sv` and of `adj`; at the first point it first
  fills its 64 × 12000 scratch with zeros; it then adds the tile's product `tileᵀ · tile` to the scratch; and at the
  last point it copies the scratch into its one output block, which the pipeline writes back only there (at every
  other point the output buffer is handed back untouched). So the call's state between points is the scratch at the
  sum of the tiles seen so far, beside every other buffer that is not being staged. This module names that running
  sum (`sAt`), runs the body once per kind of point (first, middle, last) on abstract buffers, and packages the
  runs as the per-point obligation of the pipelined call, for any contents `V` of the arrays at entry and at any
  float instance.
-/
import proofs.«105441_j37701222924909_1_alg».proof.Proof.Gen.Kernel.Launch
import proofs.«105441_j37701222924909_1_alg».proof.Proof.Gen.Kernel.Skeleton
import proofs.«105441_j37701222924909_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The windows' blocks -/

/-- Window `w`'s block at point `t`, read off its array as the call finds it. -/
def blkB (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point. One statement per input window. -/
theorem beforeB_0_of {c : Dev nD} (dat : Dat τ (Elt F) Unit ℕ (UR sig nD τ) ℕ cfg1 c) (hA : dat.A 0 = V c (Pipeline.arrRef spec1 0))
    (hafter : ∀ t, dat.after 0 t = blkB V c 0 t) (t : Fin cfg1.N) (d) : dat.before 0 t d = blkB V c 0 t :=
  (dat.before_in_eq_fetched 0 rfl (fun _ => rfl) (fun _ _ _ => rfl) (fun t => by rw [hafter]; unfold Dat.blockOf blkB; rw [hA]; try rfl) t d).trans
    (by unfold Dat.fetched Dat.blockOf blkB; rw [hA]; try rfl)
theorem beforeB_1_of {c : Dev nD} (dat : Dat τ (Elt F) Unit ℕ (UR sig nD τ) ℕ cfg1 c) (hA : dat.A 1 = V c (Pipeline.arrRef spec1 1))
    (hafter : ∀ t, dat.after 1 t = blkB V c 1 t) (t : Fin cfg1.N) (d) : dat.before 1 t d = blkB V c 1 t :=
  (dat.before_in_eq_fetched 1 rfl (fun _ => rfl) (fun _ _ _ => rfl) (fun t => by rw [hafter]; unfold Dat.blockOf blkB; rw [hA]; try rfl) t d).trans
    (by unfold Dat.fetched Dat.blockOf blkB; rw [hA]; try rfl)

/-! ## The body's two conditions, decided over the grid -/

/-- "This is the first grid point", as the body computes it. -/
abbrev condFirst (i : grid1.Coords) : Prop :=
  (Scalar.cmpi .ne (Scalar.extui (Scalar.cmpi .eq (BitVec.ofNat 32 (i 0).val) 0#32)) 0#32) = 1#1
/-- "This is the last grid point", as the body computes it. -/
abbrev condLast (i : grid1.Coords) : Prop := k1_cond2 i = 1#1

theorem hcondFirst : ∀ t : Fin cfg1.N, condFirst (grid1.coords t) ↔ t.val = 0 :=
  (by decide +kernel : ∀ t : Fin grid1.N, condFirst (grid1.coords t) ↔ t.val = 0)
theorem hcondLast : ∀ t : Fin cfg1.N, condLast (grid1.coords t) ↔ t.val = 49 :=
  (by decide +kernel : ∀ t : Fin grid1.N, condLast (grid1.coords t) ↔ t.val = 49)

/-- Away from the last point the output window is idle and is not written back; at the last point it is live. -/
theorem idleB_2 : ∀ t : Fin cfg1.N, ¬condLast (grid1.coords t) → cfg1.idle 2 (grid1.coords t) = true := by decide +kernel
theorem noFlushB_2 : ∀ t : Fin cfg1.N, ¬condLast (grid1.coords t) → (cfg1.win 2).flush t = false := by decide +kernel
theorem liveB_2 : ∀ t : Fin cfg1.N, condLast (grid1.coords t) → cfg1.idle 2 (grid1.coords t) = false := by decide +kernel
theorem liveB_0 : ∀ t : Fin cfg1.N, cfg1.idle 0 (grid1.coords t) = false := by decide +kernel
theorem liveB_1 : ∀ t : Fin cfg1.N, cfg1.idle 1 (grid1.coords t) = false := by decide +kernel

/-! ## The body, run once per kind of point on abstract buffers -/

/-- The zero offsets of a whole-buffer access, however spelt. -/
theorem zero2 : (![0, 0] : Fin 2 → Nat) = fun _ => 0 := by
  funext a; match a with | ⟨0, _⟩ => rfl | ⟨1, _⟩ => rfl

set_option maxHeartbeats 2000000 in
/-- A middle point: the scratch at `s` ends at `s` plus the tile's product; the output buffer is not touched. -/
theorem kernelB_mid (c : Dev nD) (E : Set ℕ) (i : grid1.Coords) (hc0 : ¬condFirst i) (hc1 : ¬condLast i)
    (arg1 : Memref sig .tc .vmem S200x64 .f32) (harg1 : arg1.IsWhole) (arg2 : Memref sig .tc .vmem S200x12000 .f32) (harg2 : arg2.IsWhole)
    (arg3 : Memref sig .tc .vmem S64x12000 .f32) (harg3 : arg3.IsWhole) (arg4 : Memref sig .tc .vmem S64x12000 .f32) (harg4 : arg4.IsWhole)
    (x0 : Vec F S200x64 .f32) (x1 : Vec F S200x12000 .f32) (s : Vec F S64x12000 .f32) (K : PUnit → sProp 𝕄) :
    iprop(owns (c : Thread nD τ) arg1 fullShare x0 ∗ owns (c : Thread nD τ) arg2 fullShare x1 ∗ owns (c : Thread nD τ) arg4 fullShare s
        ∗ (iprop(owns (c : Thread nD τ) arg1 fullShare x0 ∗ owns (c : Thread nD τ) arg2 fullShare x1
            ∗ owns (c : Thread nD τ) arg4 fullShare (k1_pay2 x0 x1 s)) -∗ K ⟨⟩))
      ⊢ wp frame (wpE (defs₀ (F := F)) Variants.none c none) E (cc1__kernel_b i arg1 harg1 arg2 harg2 arg3 harg3 arg4 harg4) K := by
  simp only [cc1__kernel_b_eq_skeleton]; unfold cc1__kernel_b_skel
  unfold owns
  iintro ⟨⟨%f0, %hf0, H0⟩, ⟨%f1, %hf1, H1⟩, ⟨%f4, %hf4, H4⟩, Hk⟩
  subst hf0; subst hf1; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H4
  ipureintro
  rw [View.read_writes_eq_canon _ _ _ (fun y => ⟨_, List.mem_cons_self, View.mem_set_unit_zero zero2 inb_S64x12000_S64x12000_0_0 y⟩),
    View.canon_unit_zero zero2]
  simp only [View.readAt_eq_ld, View.ld_unit_zero (S := S200x64) zero2, View.ld_unit_zero (S := S200x12000) zero2,
    View.ld_unit_zero (S := S64x12000) zero2, View.readCov_unit_zero (S := S64x12000) _ zero2]

set_option maxHeartbeats 2000000 in
/-- The first point: the scratch, at anything, ends at zero plus the tile's product; the output buffer is not touched. -/
theorem kernelB_first (c : Dev nD) (E : Set ℕ) (i : grid1.Coords) (hc0 : condFirst i) (hc1 : ¬condLast i)
    (arg1 : Memref sig .tc .vmem S200x64 .f32) (harg1 : arg1.IsWhole) (arg2 : Memref sig .tc .vmem S200x12000 .f32) (harg2 : arg2.IsWhole)
    (arg3 : Memref sig .tc .vmem S64x12000 .f32) (harg3 : arg3.IsWhole) (arg4 : Memref sig .tc .vmem S64x12000 .f32) (harg4 : arg4.IsWhole)
    (x0 : Vec F S200x64 .f32) (x1 : Vec F S200x12000 .f32) (K : PUnit → sProp 𝕄) :
    iprop(owns (c : Thread nD τ) arg1 fullShare x0 ∗ owns (c : Thread nD τ) arg2 fullShare x1 ∗ (∃ d, owns (c : Thread nD τ) arg4 fullShare d)
        ∗ (iprop(owns (c : Thread nD τ) arg1 fullShare x0 ∗ owns (c : Thread nD τ) arg2 fullShare x1
            ∗ owns (c : Thread nD τ) arg4 fullShare (k1_pay2 x0 x1 (k1_pay1 (F := F)))) -∗ K ⟨⟩))
      ⊢ wp frame (wpE (defs₀ (F := F)) Variants.none c none) E (cc1__kernel_b i arg1 harg1 arg2 harg2 arg3 harg3 arg4 harg4) K := by
  simp only [cc1__kernel_b_eq_skeleton]; unfold cc1__kernel_b_skel
  unfold owns
  iintro ⟨⟨%f0, %hf0, H0⟩, ⟨%f1, %hf1, H1⟩, ⟨%d4, %f4, -, H4⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H4
  ipureintro
  sl_unfold_words
  rw [View.read_writes_eq_canon _ _ _ (fun y => ⟨_, List.mem_cons_self, View.mem_set_unit_zero zero2 inb_S64x12000_S64x12000_0_0 y⟩),
    View.canon_cons_unit_zero zero2]
  simp only [View.readAt_eq_ld, View.ld_unit_zero (S := S200x64) zero2, View.ld_unit_zero (S := S200x12000) zero2,
    View.ld_unit_zero (S := S64x12000) zero2, View.readCov_unit_zero (S := S64x12000) _ zero2]

set_option maxHeartbeats 2000000 in
/-- The last point: the scratch at `s` ends at `s` plus the tile's product, and the output buffer holds a copy of it. -/
theorem kernelB_last (c : Dev nD) (E : Set ℕ) (i : grid1.Coords) (hc0 : ¬condFirst i) (hc1 : condLast i)
    (arg1 : Memref sig .tc .vmem S200x64 .f32) (harg1 : arg1.IsWhole) (arg2 : Memref sig .tc .vmem S200x12000 .f32) (harg2 : arg2.IsWhole)
    (arg3 : Memref sig .tc .vmem S64x12000 .f32) (harg3 : arg3.IsWhole) (arg4 : Memref sig .tc .vmem S64x12000 .f32) (harg4 : arg4.IsWhole)
    (x0 : Vec F S200x64 .f32) (x1 : Vec F S200x12000 .f32) (s : Vec F S64x12000 .f32) (K : PUnit → sProp 𝕄) :
    iprop(owns (c : Thread nD τ) arg1 fullShare x0 ∗ owns (c : Thread nD τ) arg2 fullShare x1 ∗ owns (c : Thread nD τ) arg4 fullShare s
        ∗ (∃ d, owns (c : Thread nD τ) arg3 fullShare d)
        ∗ (iprop(owns (c : Thread nD τ) arg1 fullShare x0 ∗ owns (c : Thread nD τ) arg2 fullShare x1
            ∗ owns (c : Thread nD τ) arg4 fullShare (k1_pay2 x0 x1 s) ∗ owns (c : Thread nD τ) arg3 fullShare (k1_pay2 x0 x1 s)) -∗ K ⟨⟩))
      ⊢ wp frame (wpE (defs₀ (F := F)) Variants.none c none) E (cc1__kernel_b i arg1 harg1 arg2 harg2 arg3 harg3 arg4 harg4) K := by
  simp only [cc1__kernel_b_eq_skeleton]; unfold cc1__kernel_b_skel
  unfold owns
  iintro ⟨⟨%f0, %hf0, H0⟩, ⟨%f1, %hf1, H1⟩, ⟨%f4, %hf4, H4⟩, ⟨%d3, %f3, -, H3⟩, Hk⟩
  subst hf0; subst hf1; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_words
    rw [View.read_writes_eq_canon _ _ _ (fun y => ⟨_, List.mem_cons_self, View.mem_set_unit_zero zero2 inb_S64x12000_S64x12000_0_0 y⟩),
      View.canon_unit_zero zero2]
    simp only [View.readAt_eq_ld, View.ld_unit_zero (S := S200x64) zero2, View.ld_unit_zero (S := S200x12000) zero2,
    View.ld_unit_zero (S := S64x12000) zero2, View.readCov_unit_zero (S := S64x12000) _ zero2]
  iexists _; isplitr
  swap; · iexact H3
  ipureintro
  sl_unfold_words
  rw [View.read_writes_eq_canon _ _ _ (fun y => ⟨_, List.mem_cons_self, View.mem_set_unit_zero zero2 inb_S64x12000_S64x12000_0_0 y⟩),
    View.canon_unit_zero zero2]
  simp only [View.readAt_eq_ld, View.ld_unit_zero (S := S200x64) zero2, View.ld_unit_zero (S := S200x12000) zero2,
    View.ld_unit_zero (S := S64x12000) zero2, View.readCov_unit_zero (S := S64x12000) _ zero2]

/-! ## The scratch, carried from point to point -/

/-- The scratch: a whole buffer of the call's own, passed to the body beside the windows. -/
abbrev scM : Memref sig .tc .vmem S64x12000 .f32 := Memref.whole cc1_scratch0

/-- What the scratch holds after the body at point `n`: zero plus the first tile's product, then each further tile's
    product added to what the point before left. -/
def sAt (c : Dev nD) : (n : ℕ) → n < cfg1.N → Vec F S64x12000 .f32
  | 0, hn => k1_pay2 (blkB V c 0 ⟨0, hn⟩) (blkB V c 1 ⟨0, hn⟩) (k1_pay1 (F := F))
  | n + 1, hn => k1_pay2 (blkB V c 0 ⟨n + 1, hn⟩) (blkB V c 1 ⟨n + 1, hn⟩) (sAt c n (Nat.lt_of_succ_lt hn))

theorem sAt_first (c : Dev nD) (t : Fin cfg1.N) (h : t.val = 0) :
    sAt V c t.val t.isLt = k1_pay2 (blkB V c 0 t) (blkB V c 1 t) (k1_pay1 (F := F)) := by
  obtain ⟨n, hn⟩ := t
  cases n with
  | zero => rfl
  | succ n => exact absurd h (Nat.succ_ne_zero n)

theorem sAt_next (c : Dev nD) (t : Fin cfg1.N) (h : t.val ≠ 0) :
    sAt V c t.val t.isLt = k1_pay2 (blkB V c 0 t) (blkB V c 1 t) (sAt V c (t.val - 1) (Nat.lt_of_le_of_lt (Nat.sub_le _ _) t.isLt)) := by
  obtain ⟨n, hn⟩ := t
  cases n with
  | zero => exact absurd rfl h
  | succ n => rfl

/-- Every scoped buffer of the core that is neither a staging buffer of this call nor its scratch, at some contents
    each: the other calls' staging buffers, which this call never opens. -/
abbrev othersB (c : Dev nD) : sProp 𝕄 :=
  Pipeline.scopedRestBut (Ix := Unit) (Name := ℕ) (U := UR sig nD τ) (Lvl := ℕ) (Val := Elt F) spec1 c [cc1_scratch0]

/-- The state a call keeps between points when it carries nothing, with this call's scratch singled out. -/
theorem PhiA_scratch (c : Dev nD) :
    (Pipeline.ΦA spec1 c : sProp 𝕄)
      = iprop(((∃ d, owns (c : Thread nD τ) scM fullShare d) ∗ othersB c) ∗ (∃ r, prngReg c r)) := by
  unfold Pipeline.ΦA
  rw [Pipeline.scopedRest_split_of_list spec1 c [cc1_scratch0] (by decide) (by decide)]
  simp only [scM, owns_whole]
  rfl

/-- The call's state before position `n`: before the first point nothing is known of the scratch; afterwards it holds
    what the point before left. -/
def PhiB (c : Dev nD) : (n : ℕ) → n ≤ cfg1.N → sProp 𝕄
  | 0, _ => Pipeline.ΦA spec1 c
  | n + 1, hn => iprop((owns (c : Thread nD τ) scM fullShare (sAt V c n hn) ∗ othersB c) ∗ (∃ r, prngReg c r))

theorem PhiB_zero (c : Dev nD) (n : ℕ) (h : n ≤ cfg1.N) (hz : n = 0) : PhiB V c n h = Pipeline.ΦA spec1 c := by
  subst hz; rfl

theorem PhiB_succ (c : Dev nD) (n : ℕ) (hn : n < cfg1.N) :
    PhiB V c (n + 1) hn = iprop((owns (c : Thread nD τ) scM fullShare (sAt V c n hn) ∗ othersB c) ∗ (∃ r, prngReg c r)) := rfl

theorem PhiB_pos (c : Dev nD) (n : ℕ) (h : n ≤ cfg1.N) (hz : n ≠ 0) :
    PhiB V c n h = iprop((owns (c : Thread nD τ) scM fullShare (sAt V c (n - 1) (by omega)) ∗ othersB c) ∗ (∃ r, prngReg c r)) := by
  cases n with
  | zero => exact absurd rfl hz
  | succ n => rfl

/-! ## The call's proof data -/

/-- The arrays as the call finds them; after the body at point `t` each input's buffer at its block, and the output's
    named at the running sum (it is written only at the last point, where that is what the body copies into it);
    between points the scratch at the running sum; nothing owed; full shares. -/
def datB (c : Dev nD) : Dat τ (Elt F) Unit ℕ (UR sig nD τ) ℕ cfg1 c where
  A w := V c (Pipeline.arrRef spec1 w)
  after w t := match w with
    | ⟨0, _⟩ => blkB V c 0 t
    | ⟨1, _⟩ => blkB V c 1 t
    | ⟨2, _⟩ => sAt V c t.val t.isLt
  Φ t := PhiB V c t.val (Nat.le_of_lt_succ t.isLt)
  q _ := fullShare
  owed _ := 0

theorem A_eqB (c : Dev nD) (w : Fin cfg1.W) : (datB V c).A w = V c (Pipeline.arrRef spec1 w) := by
  dsimp only [datB]

theorem PhiB_castSucc (c : Dev nD) (t : Fin cfg1.N) :
    (datB V c).Φ t.castSucc = PhiB V c t.val (Nat.le_of_lt t.isLt) := by
  dsimp only [datB]; simp only [Fin.coe_castSucc]

theorem afterB_0 (c : Dev nD) (t : Fin cfg1.N) : (datB V c).after 0 t = blkB V c 0 t := by dsimp only [datB]
theorem afterB_1 (c : Dev nD) (t : Fin cfg1.N) : (datB V c).after 1 t = blkB V c 1 t := by dsimp only [datB]
theorem afterB_2 (c : Dev nD) (t : Fin cfg1.N) : (datB V c).after 2 t = sAt V c t.val t.isLt := by dsimp only [datB]

theorem beforeB_0 (c : Dev nD) (t : Fin cfg1.N) (d) : (datB V c).before 0 t d = blkB V c 0 t :=
  beforeB_0_of V (datB V c) (A_eqB V c 0) (afterB_0 V c) t d
theorem beforeB_1 (c : Dev nD) (t : Fin cfg1.N) (d) : (datB V c).before 1 t d = blkB V c 1 t :=
  beforeB_1_of V (datB V c) (A_eqB V c 1) (afterB_1 V c) t d

/-! ## The per-point obligation -/

/-- What the body is called with at point `t`, the windows one by one, -/
def bodyPreB (c : Dev nD) (t : Fin cfg1.N) : sProp 𝕄 :=
  iprop((datB V c).Φ t.castSucc ∗ (datB V c).owesAt () t.castSucc
    ∗ (∃ d, owns (c : Thread nD τ) (st1_0 t) fullShare ((datB V c).before 0 t d))
    ∗ (∃ d, owns (c : Thread nD τ) (st1_1 t) fullShare ((datB V c).before 1 t d))
    ∗ (∃ d, owns (c : Thread nD τ) (st1_2 t) fullShare ((datB V c).before 2 t d)))

/-- and what it returns. -/
def bodyPostB (c : Dev nD) (t : Fin cfg1.N) : sProp 𝕄 :=
  iprop((datB V c).Φ t.succ ∗ (datB V c).owesAt () t.succ
    ∗ (datB V c).leavesExact 0 t
    ∗ (datB V c).leavesExact 1 t
    ∗ (datB V c).leavesExact 2 t)

set_option maxHeartbeats 2000000 in
/-- The body at any point, by the kind of point. The inputs' buffers hold their blocks; the state between points
    hands the body its scratch — at anything before the first point, at the running sum afterwards — and takes it
    back at the running sum one tile further; away from the last point the output buffer goes back as it came, at the
    last point it holds the running sum. -/
theorem sound_bodyB (c : Dev nD) (t : Fin cfg1.N) :
    bodyPreB V c t ⊢ wp frame (wpE (defs₀ (F := F)) Variants.none c none) Set.univ (bodyAt1 t) (fun _ => bodyPostB V c t) := by
  unfold bodyPreB bodyPostB bodyAt1
  simp only [beforeB_0, beforeB_1]
  rw [show (datB V c).owesAt () t.succ = (datB V c).owesAt () t.castSucc from rfl]
  rw [show (datB V c).Φ t.succ = PhiB V c (t.val + 1) t.isLt from rfl, PhiB_succ]
  rw [show (datB V c).leavesExact 0 t = owns (c : Thread nD τ) (st1_0 t) fullShare ((datB V c).after 0 t) from by
    unfold Dat.leavesExact; rw [liveB_0 t], afterB_0]
  rw [show (datB V c).leavesExact 1 t = owns (c : Thread nD τ) (st1_1 t) fullShare ((datB V c).after 1 t) from by
    unfold Dat.leavesExact; rw [liveB_1 t], afterB_1]
  have hN : t.val < 50 := lt_of_lt_of_eq t.isLt (show cfg1.N = 50 from N_1)
  by_cases hfirst : t.val = 0
  · -- the first point
    have hc0 : condFirst (grid1.coords t) := (hcondFirst t).mpr hfirst
    have hc1 : ¬condLast (grid1.coords t) := fun h => by have := (hcondLast t).mp h; omega
    rw [Dat.leavesExact_idle (datB V c) 2 t (idleB_2 t hc1) (noFlushB_2 t hc1)]
    rw [sAt_first V c t hfirst]
    rw [PhiB_castSucc V c t, PhiB_zero V c _ _ hfirst, PhiA_scratch]
    iintro ⟨⟨⟨HS, Hoth⟩, Hg⟩, Ho, ⟨%d0, H0⟩, ⟨%d1, H1⟩, H2⟩
    iapply (kernelB_first c Set.univ (grid1.coords t) hc0 hc1 _ _ _ _ _ _ _ _ (blkB V c 0 t) (blkB V c 1 t) _)
    isplitl [H0]; · iexact H0
    isplitl [H1]; · iexact H1
    isplitl [HS]; · iexact HS
    iintro ⟨H0, H1, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    iexact H2
  · by_cases hlast : t.val = 49
    · -- the last point
      have hc0 : ¬condFirst (grid1.coords t) := fun h => hfirst ((hcondFirst t).mp h)
      have hc1 : condLast (grid1.coords t) := (hcondLast t).mpr hlast
      rw [show (datB V c).leavesExact 2 t = owns (c : Thread nD τ) (st1_2 t) fullShare ((datB V c).after 2 t) from by
        unfold Dat.leavesExact; rw [liveB_2 t hc1], afterB_2]
      rw [sAt_next V c t hfirst]
      rw [PhiB_castSucc V c t, PhiB_pos V c _ _ hfirst]
      iintro ⟨⟨⟨HS, Hoth⟩, Hg⟩, Ho, ⟨%d0, H0⟩, ⟨%d1, H1⟩, ⟨%d2, H2⟩⟩
      iapply (kernelB_last c Set.univ (grid1.coords t) hc0 hc1 _ _ _ _ _ _ _ _ (blkB V c 0 t) (blkB V c 1 t) _ _)
      isplitl [H0]; · iexact H0
      isplitl [H1]; · iexact H1
      isplitl [HS]; · iexact HS
      isplitl [H2]; · iexists _; iexact H2
      iintro ⟨H0, H1, HS, H2⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · -- a middle point
      have hc0 : ¬condFirst (grid1.coords t) := fun h => hfirst ((hcondFirst t).mp h)
      have hc1 : ¬condLast (grid1.coords t) := fun h => hlast ((hcondLast t).mp h)
      rw [Dat.leavesExact_idle (datB V c) 2 t (idleB_2 t hc1) (noFlushB_2 t hc1)]
      rw [sAt_next V c t hfirst]
      rw [PhiB_castSucc V c t, PhiB_pos V c _ _ hfirst]
      iintro ⟨⟨⟨HS, Hoth⟩, Hg⟩, Ho, ⟨%d0, H0⟩, ⟨%d1, H1⟩, H2⟩
      iapply (kernelB_mid c Set.univ (grid1.coords t) hc0 hc1 _ _ _ _ _ _ _ _ (blkB V c 0 t) (blkB V c 1 t) _ _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2

/-- The pipelined call's obligation, at every point. -/
theorem body_obligationB (c : Dev nD) : BodyObligation (datB (F := F) V c) (defs₀ (F := F)) Variants.none () Set.univ := fun t => by
  rw [bigSep_W1, bigSep_W1]
  exact sound_bodyB V c t

/-- What the launch hands the call is its state before the first point. -/
theorem hinB (c : Dev nD) : Pipeline.ΦA spec1 c ⊢ (datB V c).Φ 0 := by
  rw [show (datB V c).Φ 0 = PhiB V c 0 (Nat.zero_le _) from rfl, PhiB_zero V c 0 _ rfl]
  try exact Idealize.SL.BI.Entails.refl _

/-- After the last point the call's state gives back what it was handed: the scratch's contents are forgotten. -/
theorem houtB (c : Dev nD) : (datB V c).Φ (Fin.last cfg1.N) ⊢ Pipeline.ΦA spec1 c := by
  rw [show (datB V c).Φ (Fin.last cfg1.N) = PhiB V c (Fin.last cfg1.N).val (Nat.le_of_lt_succ (Fin.last cfg1.N).isLt) from rfl,
    PhiB_pos V c _ _ (by rw [Fin.val_last]; have : cfg1.N = 50 := N_1; omega), PhiA_scratch]
  iintro ⟨⟨HS, Hoth⟩, Hg⟩
  isplitl [HS Hoth]
  · isplitl [HS]; · iexists _; iexact HS
    iexact Hoth
  iexact Hg

end Cert.Kernel.Frame

end
-- ==== Proof.K_RegionC.lean ====
/-
  The third pallas_call: `rating = left_scaled @ right`, one tile of 200 user rows per grid point.

  At grid point `t` the body reads rows `200·t … 200·t + 199` of the scaled left factor (all 64 columns) and the whole
  64 × 12000 right factor, and stores their product into its 200 × 12000 output block. Nothing is carried between
  points. As for the first call: what the body leaves in each staging buffer as a function of the blocks it found, the
  body run once on abstract buffers, and the per-point obligation of the pipelined call, for any contents `V` of the
  arrays at entry and at any float instance.
-/
import proofs.«105441_j37701222924909_1_alg».proof.Proof.Gen.Kernel.Launch
import proofs.«105441_j37701222924909_1_alg».proof.Proof.Gen.Kernel.Skeleton
import proofs.«105441_j37701222924909_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The windows' blocks -/

/-- Window `w`'s block at point `t`, read off its array as the call finds it. -/
def blkC (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: where it is not
    fetched its block index has not moved. One statement per input window. -/
theorem beforeC_0_of {c : Dev nD} (dat : Dat τ (Elt F) Unit ℕ (UR sig nD τ) ℕ cfg2 c) (hA : dat.A 0 = V c (Pipeline.arrRef spec2 0))
    (hafter : ∀ t, dat.after 0 t = blkC V c 0 t) (t : Fin cfg2.N) (d) : dat.before 0 t d = blkC V c 0 t :=
  (dat.before_in_eq_fetched 0 rfl (fun _ => rfl) (fun _ _ _ => rfl) (fun t => by rw [hafter]; unfold Dat.blockOf blkC; rw [hA]; try rfl) t d).trans
    (by unfold Dat.fetched Dat.blockOf blkC; rw [hA]; try rfl)
theorem beforeC_1_of {c : Dev nD} (dat : Dat τ (Elt F) Unit ℕ (UR sig nD τ) ℕ cfg2 c) (hA : dat.A 1 = V c (Pipeline.arrRef spec2 1))
    (hafter : ∀ t, dat.after 1 t = blkC V c 1 t) (t : Fin cfg2.N) (d) : dat.before 1 t d = blkC V c 1 t :=
  (dat.before_in_eq_fetched 1 rfl (fun _ => rfl) (fun _ _ _ => rfl) (fun t => by rw [hafter]; unfold Dat.blockOf blkC; rw [hA]; try rfl) t d).trans
    (by unfold Dat.fetched Dat.blockOf blkC; rw [hA]; try rfl)

/-! ## What the body stores -/

/-- The whole 200 × 12000 output block. -/
abbrev rC : Rect S200x12000 := Rect.unit (s := S200x12000) ![0, 0] S200x12000.size inb_S200x12000_S200x12000_0_0

/-- The output block after the body, from the two input blocks: its one store. -/
def outC (x0 : Vec F S200x64 .f32) (x1 : Vec F S64x12000 .f32) : Vec F S200x12000 .f32 :=
  View.canon [⟨rC, k2_pay1 (View.ld x0 (Rect.unit (s := S200x64) ![0, 0] S200x64.size inb_S200x64_S200x64_0_0))
    (View.ld x1 (Rect.unit (s := S64x12000) ![0, 0] S64x12000.size inb_S64x12000_S64x12000_0_0))⟩]

/-- The one store covers the block. -/
theorem coverC (p0 : Vec F S200x12000 .f32) (y : S200x12000.Idx) :
    ∃ pc ∈ ([⟨rC, p0⟩] : List (View.Piece (Elt F) S200x12000 .f32)), y ∈ pc.1.set :=
  View.cover_of_tiled [⟨rC, p0⟩] S200x12000.size (by rfl) y

/-! ## The body, run once on abstract buffers -/

set_option maxHeartbeats 1000000 in
/-- On whole staging buffers, the inputs' at contents `x0 x1` and the output's at anything, the body runs to the
    continuation with the inputs as they were and the output at `outC x0 x1`. -/
theorem sound_kernelC (c : Dev nD) (E : Set ℕ) (i : grid2.Coords)
    (arg1 : Memref sig .tc .vmem S200x64 .f32) (harg1 : arg1.IsWhole) (arg2 : Memref sig .tc .vmem S64x12000 .f32) (harg2 : arg2.IsWhole)
    (arg3 : Memref sig .tc .vmem S200x12000 .f32) (harg3 : arg3.IsWhole)
    (x0 : Vec F S200x64 .f32) (x1 : Vec F S64x12000 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (outC x0 x1)) -∗ K ⟨⟩))
      ⊢ wp frame (wpE (defs₀ (F := F)) Variants.none c none) E (cc2__kernel_c i arg1 harg1 arg2 harg2 arg3 harg3) K := by
  simp only [cc2__kernel_c_eq_skeleton]; unfold cc2__kernel_c_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverC _)

/-! ## The call's proof data -/

/-- The arrays as the call finds them; after the body at point `t` each input's buffer at its block and the output's at
    `outC` of the input blocks; between points nothing of the call's own is kept; nothing owed; full shares. -/
def datC (c : Dev nD) : Dat τ (Elt F) Unit ℕ (UR sig nD τ) ℕ cfg2 c where
  A w := V c (Pipeline.arrRef spec2 w)
  after w t := match w with
    | ⟨0, _⟩ => blkC V c 0 t
    | ⟨1, _⟩ => blkC V c 1 t
    | ⟨2, _⟩ => outC (blkC V c 0 t) (blkC V c 1 t)
  Φ _ := Pipeline.ΦA spec2 c
  q _ := fullShare
  owed _ := 0

theorem A_eqC (c : Dev nD) (w : Fin cfg2.W) : (datC V c).A w = V c (Pipeline.arrRef spec2 w) := by
  dsimp only [datC]

theorem afterC_0 (c : Dev nD) (t : Fin cfg2.N) : (datC V c).after 0 t = blkC V c 0 t := by dsimp only [datC]
theorem afterC_1 (c : Dev nD) (t : Fin cfg2.N) : (datC V c).after 1 t = blkC V c 1 t := by dsimp only [datC]
theorem afterC_2 (c : Dev nD) (t : Fin cfg2.N) :
    (datC V c).after 2 t = outC (blkC V c 0 t) (blkC V c 1 t) := by dsimp only [datC]

theorem beforeC_0 (c : Dev nD) (t : Fin cfg2.N) (d) : (datC V c).before 0 t d = blkC V c 0 t :=
  beforeC_0_of V (datC V c) (A_eqC V c 0) (afterC_0 V c) t d
theorem beforeC_1 (c : Dev nD) (t : Fin cfg2.N) (d) : (datC V c).before 1 t d = blkC V c 1 t :=
  beforeC_1_of V (datC V c) (A_eqC V c 1) (afterC_1 V c) t d

/-! ## The per-point obligation -/

/-- What the body is called with at point `t`, the windows one by one, -/
def bodyPreC (c : Dev nD) (t : Fin cfg2.N) : sProp 𝕄 :=
  iprop((datC V c).Φ t.castSucc ∗ (datC V c).owesAt () t.castSucc
    ∗ (∃ d, owns (c : Thread nD τ) (st2_0 t) fullShare ((datC V c).before 0 t d))
    ∗ (∃ d, owns (c : Thread nD τ) (st2_1 t) fullShare ((datC V c).before 1 t d))
    ∗ (∃ d, owns (c : Thread nD τ) (st2_2 t) fullShare ((datC V c).before 2 t d)))

/-- and what it returns. -/
def bodyPostC (c : Dev nD) (t : Fin cfg2.N) : sProp 𝕄 :=
  iprop((datC V c).Φ t.succ ∗ (datC V c).owesAt () t.succ
    ∗ owns (c : Thread nD τ) (st2_0 t) fullShare ((datC V c).after 0 t)
    ∗ owns (c : Thread nD τ) (st2_1 t) fullShare ((datC V c).after 1 t)
    ∗ owns (c : Thread nD τ) (st2_2 t) fullShare ((datC V c).after 2 t))

/-- The body at any point: the inputs' buffers hold their blocks, so the run above applies; the state between points
    and what the core owes pass through unread. -/
theorem sound_bodyC (c : Dev nD) (t : Fin cfg2.N) :
    bodyPreC V c t ⊢ wp frame (wpE (defs₀ (F := F)) Variants.none c none) Set.univ (bodyAt2 t) (fun _ => bodyPostC V c t) := by
  unfold bodyPreC bodyPostC bodyAt2
  simp only [beforeC_0, beforeC_1]
  rw [show (datC V c).Φ t.succ = (datC V c).Φ t.castSucc from rfl,
    show (datC V c).owesAt () t.succ = (datC V c).owesAt () t.castSucc from rfl,
    afterC_0, afterC_1, afterC_2]
  iintro ⟨HΦ, Ho, ⟨%d0, H0⟩, ⟨%d1, H1⟩, ⟨%d2, H2⟩⟩
  iapply (sound_kernelC c Set.univ _ _ _ _ _ _ _ (blkC V c 0 t) (blkC V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipelined call's obligation, at every point. -/
theorem body_obligationC (c : Dev nD) : BodyObligation (datC (F := F) V c) (defs₀ (F := F)) Variants.none () Set.univ := fun t => by
  rw [bigSep_W2, bigSep_W2]
  exact sound_bodyC V c t

end Cert.Kernel.Frame

end
-- ==== Proof.K_Run.lean ====
/-
  The whole program: one stretch of three host operations (the float one, broadcast, divided by `lambda`), then the
  three pallas_calls one after the other.

  The contents of the core's unscoped buffers at each boundary are a fold from the launch memory: after the host
  stretch; after the first call, whose output array then holds what its fifty write-backs leave; after the second,
  whose output holds what its one write-back at the last point leaves; after the third. Each call is entered from
  "every unscoped buffer at the boundary's contents, the generator register at some state, nothing owed" and left at
  the same with the next boundary's contents. Every weakly fair execution terminates, and the final memory holds
  every unscoped buffer at the last boundary's contents; the arguments are read back through the fold to their launch
  contents, since no host operation and no call writes one. Stated at any float instance.
-/
import proofs.«105441_j37701222924909_1_alg».proof.Proof.K_RegionA
import proofs.«105441_j37701222924909_1_alg».proof.Proof.K_RegionB
import proofs.«105441_j37701222924909_1_alg».proof.Proof.K_RegionC

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host stretch (the first call's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the first call's exit (the second's entry): its arrays at what the pipeline leaves, every other buffer as entered. -/
def W2 (c : Dev nD) : Valuation τ sig (Elt F) :=
  Pipeline.withArrays spec0 c (W1 m ρ c) fun w => (datA (V1 m ρ) c).arrAt w cfg0.N
theorem W2_arr (c : Dev nD) (w : Fin cfg0.W) :
    W2 m ρ c (Proc.devRef .tc (Pipeline.arrRef spec0 w)) = (datA (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hFA (c : Dev nD) (w : Fin cfg0.W) : (datA (V1 m ρ) c).arrAt w cfg0.N = V2 m ρ c (Pipeline.arrRef spec0 w) :=
  (W2_arr m ρ c w).symm
theorem hrestA (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- At the second call's exit (the third's entry). -/
def W3 (c : Dev nD) : Valuation τ sig (Elt F) :=
  Pipeline.withArrays spec1 c (W2 m ρ c) fun w => (datB (V2 m ρ) c).arrAt w cfg1.N
theorem W3_arr (c : Dev nD) (w : Fin cfg1.W) :
    W3 m ρ c (Proc.devRef .tc (Pipeline.arrRef spec1 w)) = (datB (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hFB (c : Dev nD) (w : Fin cfg1.W) : (datB (V2 m ρ) c).arrAt w cfg1.N = V3 m ρ c (Pipeline.arrRef spec1 w) :=
  (W3_arr m ρ c w).symm
theorem hrestB (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- At the third call's exit: what the program ends with. -/
def W4 (c : Dev nD) : Valuation τ sig (Elt F) :=
  Pipeline.withArrays spec2 c (W3 m ρ c) fun w => (datC (V3 m ρ) c).arrAt w cfg2.N
theorem W4_arr (c : Dev nD) (w : Fin cfg2.W) :
    W4 m ρ c (Proc.devRef .tc (Pipeline.arrRef spec2 w)) = (datC (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m ρ c b
theorem hFC (c : Dev nD) (w : Fin cfg2.W) : (datC (V3 m ρ) c).arrAt w cfg2.N = V4 m ρ c (Pipeline.arrRef spec2 w) :=
  (W4_arr m ρ c w).symm
theorem hrestC (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := (W3_arr m ρ c 0).trans (((datB (V2 m ρ) c).arrAt_in 0 rfl _).trans (A_eqB (V2 m ρ) c 0))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := (W2_arr m ρ c 1).trans (((datA (V1 m ρ) c).arrAt_in 1 rfl _).trans (A_eqA (V1 m ρ) c 1))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := (W3_arr m ρ c 1).trans (((datB (V2 m ρ) c).arrAt_in 1 rfl _).trans (A_eqB (V2 m ρ) c 1))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := (W2_arr m ρ c 0).trans (((datA (V1 m ρ) c).arrAt_in 0 rfl _).trans (A_eqA (V1 m ρ) c 0))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ## The proof data family and the thread state -/

/-- No call has a prefetched table. -/
abbrev adm : (p : Fin 3) → (pcfgs (F := F) p).Adm := fun p => (cfgs p).toPCfg_adm
/-- Every call's proof data, each at its entry contents. -/
def pdats : (p : Fin 3) → (c : Dev nD) → Dat τ (Elt F) Unit ℕ (UR sig nD τ) ℕ (Pipeline.pin (pcfgs (F := F)) adm p) c
  | ⟨0, _⟩ => fun c => datA (V1 m ρ) c
  | ⟨1, _⟩ => fun c => datB (V2 m ρ) c
  | ⟨2, _⟩ => fun c => datC (V3 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- The host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh' : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The calls as segments -/

set_option backward.isDefEq.respectTransparency.types false in
def regA : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligationA (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hFA m ρ c) (hrestA m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def regB : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligationB (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (houtB (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hFB m ρ c) (hrestB m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def regC : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligationC (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hFC m ρ c) (hrestC m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's four segments in order. -/
abbrev segs : List (Pipeline.Seg (pcfgs (F := F)) adm (pdats m ρ) () defs₀ 𝒱₀ L lv) :=
  [ .host (hseg hostOps0 hostOps0_sub hostOps0_fresh' (W0 m ρ)),
    .region (regA m ρ),
    .region (regB m ρ),
    .region (regC m ρ) ]
/-- The program is the run of its segments. -/
theorem main_run (c : Dev nD) : main (F := F) c = Pipeline.Seg.run (segs m ρ) := (main_chain c).trans (by chain_rfl)

set_option backward.isDefEq.respectTransparency.types false in
/-- From any memory with zero counters every weakly fair execution of the program terminates, nothing faulting, and the
    final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: the program runs and its five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

end Cert.Kernel.Frame

end
-- ==== Proof.KI_RegionA.lean ====
/-
  The first pallas_call: `left_scaled = (norm_adj @ item_sv) · (1/lambda)`, one tile of 200 user rows per grid point.

  At grid point `t` the body reads three staged blocks — rows `200·t … 200·t + 199` of `norm_adj` (all 12000 columns),
  the whole of `item_sv`, the whole reciprocal vector — and stores ONE value into its output block: the product of the
  row tile with `item_sv`, each column scaled by its reciprocal singular value. Nothing is carried from point to point,
  so the call's state between points is just "every buffer that is not being staged, at some contents". This module
  states what the body leaves in each staging buffer as a function of the blocks it found, runs the body once on
  abstract buffers, and packages that as the per-point obligation of the pipelined call, for any contents `V` of the
  arrays at entry and at any float instance.
-/
import proofs.«105441_j37701222924909_1_alg».proof.Proof.Gen.KernelIdeal.Launch
import proofs.«105441_j37701222924909_1_alg».proof.Proof.Gen.KernelIdeal.Skeleton
import proofs.«105441_j37701222924909_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The windows' blocks -/

/-- Window `w`'s block at point `t`, read off its array as the call finds it. -/
def blkA (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not
    fetched its block index has not moved. Stated for any proof data whose arrays are `V`'s and whose body leaves the
    inputs in place; one statement per input window. -/
theorem beforeA_0_of {c : Dev nD} (dat : Dat τ (Elt F) Unit ℕ (UR sig nD τ) ℕ cfg0 c) (hA : dat.A 0 = V c (Pipeline.arrRef spec0 0))
    (hafter : ∀ t, dat.after 0 t = blkA V c 0 t) (t : Fin cfg0.N) (d) : dat.before 0 t d = blkA V c 0 t :=
  (dat.before_in_eq_fetched 0 rfl (fun _ => rfl) (fun _ _ _ => rfl) (fun t => by rw [hafter]; unfold Dat.blockOf blkA; rw [hA]; try rfl) t d).trans
    (by unfold Dat.fetched Dat.blockOf blkA; rw [hA]; try rfl)
theorem beforeA_1_of {c : Dev nD} (dat : Dat τ (Elt F) Unit ℕ (UR sig nD τ) ℕ cfg0 c) (hA : dat.A 1 = V c (Pipeline.arrRef spec0 1))
    (hafter : ∀ t, dat.after 1 t = blkA V c 1 t) (t : Fin cfg0.N) (d) : dat.before 1 t d = blkA V c 1 t :=
  (dat.before_in_eq_fetched 1 rfl (fun _ => rfl) (fun _ _ _ => rfl) (fun t => by rw [hafter]; unfold Dat.blockOf blkA; rw [hA]; try rfl) t d).trans
    (by unfold Dat.fetched Dat.blockOf blkA; rw [hA]; try rfl)
theorem beforeA_2_of {c : Dev nD} (dat : Dat τ (Elt F) Unit ℕ (UR sig nD τ) ℕ cfg0 c) (hA : dat.A 2 = V c (Pipeline.arrRef spec0 2))
    (hafter : ∀ t, dat.after 2 t = blkA V c 2 t) (t : Fin cfg0.N) (d) : dat.before 2 t d = blkA V c 2 t :=
  (dat.before_in_eq_fetched 2 rfl (fun _ => rfl) (fun _ _ _ => rfl) (fun t => by rw [hafter]; unfold Dat.blockOf blkA; rw [hA]; try rfl) t d).trans
    (by unfold Dat.fetched Dat.blockOf blkA; rw [hA]; try rfl)

/-! ## What the body stores -/

/-- The whole 200 × 64 output block. -/
abbrev rA : Rect S200x64 := Rect.unit (s := S200x64) ![0, 0] S200x64.size inb_S200x64_S200x64_0_0

/-- The output block after the body, from the three input blocks: its one store. -/
def outA (x0 : Vec F S200x12000 .f32) (x1 : Vec F S12000x64 .f32) (x2 : Vec F S64 .f32) : Vec F S200x64 .f32 :=
  View.canon [⟨rA, k0_pay1 (View.ld x0 (Rect.unit (s := S200x12000) ![0, 0] S200x12000.size inb_S200x12000_S200x12000_0_0))
    (View.ld x1 (Rect.unit (s := S12000x64) ![0, 0] S12000x64.size inb_S12000x64_S12000x64_0_0))
    (View.ld x2 (Rect.unit (s := S64) ![0] S64.size inb_S64_S64_0))⟩]

/-- The one store covers the block. -/
theorem coverA (p0 : Vec F S200x64 .f32) (y : S200x64.Idx) :
    ∃ pc ∈ ([⟨rA, p0⟩] : List (View.Piece (Elt F) S200x64 .f32)), y ∈ pc.1.set :=
  View.cover_of_tiled [⟨rA, p0⟩] S200x64.size (by rfl) y

/-! ## The body, run once on abstract buffers -/

set_option maxHeartbeats 1000000 in
/-- On whole staging buffers, the inputs' at contents `x0 x1 x2` and the output's at anything, the body runs to the
    continuation with the inputs as they were and the output at `outA x0 x1 x2`. -/
theorem sound_kernelA (c : Dev nD) (E : Set ℕ) (i : grid0.Coords)
    (arg1 : Memref sig .tc .vmem S200x12000 .f32) (harg1 : arg1.IsWhole) (arg2 : Memref sig .tc .vmem S12000x64 .f32) (harg2 : arg2.IsWhole)
    (arg3 : Memref sig .tc .vmem S64 .f32) (harg3 : arg3.IsWhole) (arg4 : Memref sig .tc .vmem S200x64 .f32) (harg4 : arg4.IsWhole)
    (x0 : Vec F S200x12000 .f32) (x1 : Vec F S12000x64 .f32) (x2 : Vec F S64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outA x0 x1 x2)) -∗ K ⟨⟩))
      ⊢ wp frame (wpE (defs₀ (F := F)) Variants.none c none) E (cc0__kernel_a i arg1 harg1 arg2 harg2 arg3 harg3 arg4 harg4) K := by
  simp only [cc0__kernel_a_eq_skeleton]; unfold cc0__kernel_a_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverA _)

/-! ## The call's proof data -/

/-- The arrays as the call finds them; after the body at point `t` each input's buffer at its block and the output's at
    `outA` of the input blocks; between points nothing of the call's own is kept; nothing owed; full shares. -/
def datA (c : Dev nD) : Dat τ (Elt F) Unit ℕ (UR sig nD τ) ℕ cfg0 c where
  A w := V c (Pipeline.arrRef spec0 w)
  after w t := match w with
    | ⟨0, _⟩ => blkA V c 0 t
    | ⟨1, _⟩ => blkA V c 1 t
    | ⟨2, _⟩ => blkA V c 2 t
    | ⟨3, _⟩ => outA (blkA V c 0 t) (blkA V c 1 t) (blkA V c 2 t)
  Φ _ := Pipeline.ΦA spec0 c
  q _ := fullShare
  owed _ := 0

theorem A_eqA (c : Dev nD) (w : Fin cfg0.W) : (datA V c).A w = V c (Pipeline.arrRef spec0 w) := by
  dsimp only [datA]

theorem afterA_0 (c : Dev nD) (t : Fin cfg0.N) : (datA V c).after 0 t = blkA V c 0 t := by dsimp only [datA]
theorem afterA_1 (c : Dev nD) (t : Fin cfg0.N) : (datA V c).after 1 t = blkA V c 1 t := by dsimp only [datA]
theorem afterA_2 (c : Dev nD) (t : Fin cfg0.N) : (datA V c).after 2 t = blkA V c 2 t := by dsimp only [datA]
theorem afterA_3 (c : Dev nD) (t : Fin cfg0.N) :
    (datA V c).after 3 t = outA (blkA V c 0 t) (blkA V c 1 t) (blkA V c 2 t) := by dsimp only [datA]

theorem beforeA_0 (c : Dev nD) (t : Fin cfg0.N) (d) : (datA V c).before 0 t d = blkA V c 0 t :=
  beforeA_0_of V (datA V c) (A_eqA V c 0) (afterA_0 V c) t d
theorem beforeA_1 (c : Dev nD) (t : Fin cfg0.N) (d) : (datA V c).before 1 t d = blkA V c 1 t :=
  beforeA_1_of V (datA V c) (A_eqA V c 1) (afterA_1 V c) t d
theorem beforeA_2 (c : Dev nD) (t : Fin cfg0.N) (d) : (datA V c).before 2 t d = blkA V c 2 t :=
  beforeA_2_of V (datA V c) (A_eqA V c 2) (afterA_2 V c) t d

/-! ## The per-point obligation -/

/-- What the body is called with at point `t`, the windows one by one, -/
def bodyPreA (c : Dev nD) (t : Fin cfg0.N) : sProp 𝕄 :=
  iprop((datA V c).Φ t.castSucc ∗ (datA V c).owesAt () t.castSucc
    ∗ (∃ d, owns (c : Thread nD τ) (st0_0 t) fullShare ((datA V c).before 0 t d))
    ∗ (∃ d, owns (c : Thread nD τ) (st0_1 t) fullShare ((datA V c).before 1 t d))
    ∗ (∃ d, owns (c : Thread nD τ) (st0_2 t) fullShare ((datA V c).before 2 t d))
    ∗ (∃ d, owns (c : Thread nD τ) (st0_3 t) fullShare ((datA V c).before 3 t d)))

/-- and what it returns. -/
def bodyPostA (c : Dev nD) (t : Fin cfg0.N) : sProp 𝕄 :=
  iprop((datA V c).Φ t.succ ∗ (datA V c).owesAt () t.succ
    ∗ owns (c : Thread nD τ) (st0_0 t) fullShare ((datA V c).after 0 t)
    ∗ owns (c : Thread nD τ) (st0_1 t) fullShare ((datA V c).after 1 t)
    ∗ owns (c : Thread nD τ) (st0_2 t) fullShare ((datA V c).after 2 t)
    ∗ owns (c : Thread nD τ) (st0_3 t) fullShare ((datA V c).after 3 t))

/-- The body at any point: the inputs' buffers hold their blocks, so the run above applies; the state between points
    and what the core owes pass through unread. -/
theorem sound_bodyA (c : Dev nD) (t : Fin cfg0.N) :
    bodyPreA V c t ⊢ wp frame (wpE (defs₀ (F := F)) Variants.none c none) Set.univ (bodyAt0 t) (fun _ => bodyPostA V c t) := by
  unfold bodyPreA bodyPostA bodyAt0
  simp only [beforeA_0, beforeA_1, beforeA_2]
  rw [show (datA V c).Φ t.succ = (datA V c).Φ t.castSucc from rfl,
    show (datA V c).owesAt () t.succ = (datA V c).owesAt () t.castSucc from rfl,
    afterA_0, afterA_1, afterA_2, afterA_3]
  iintro ⟨HΦ, Ho, ⟨%d0, H0⟩, ⟨%d1, H1⟩, ⟨%d2, H2⟩, ⟨%d3, H3⟩⟩
  iapply (sound_kernelA c Set.univ _ _ _ _ _ _ _ _ _ (blkA V c 0 t) (blkA V c 1 t) (blkA V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipelined call's obligation, at every point. -/
theorem body_obligationA (c : Dev nD) : BodyObligation (datA (F := F) V c) (defs₀ (F := F)) Variants.none () Set.univ := fun t => by
  rw [bigSep_W0, bigSep_W0]
  exact sound_bodyA V c t

end Cert.KernelIdeal.Frame

end
-- ==== Proof.KI_RegionB.lean ====
/-
  The second pallas_call: `right = user_svᵀ @ adj`, accumulated over the 50 tiles of the user axis in a scratch.

  At grid point `t` the body reads rows `200·t … 200·t + 199` of `user_sv` and of `adj`; at the first point it first
  fills its 64 × 12000 scratch with zeros; it then adds the tile's product `tileᵀ · tile` to the scratch; and at the
  last point it copies the scratch into its one output block, which the pipeline writes back only there (at every
  other point the output buffer is handed back untouched). So the call's state between points is the scratch at the
  sum of the tiles seen so far, beside every other buffer that is not being staged. This module names that running
  sum (`sAt`), runs the body once per kind of point (first, middle, last) on abstract buffers, and packages the
  runs as the per-point obligation of the pipelined call, for any contents `V` of the arrays at entry and at any
  float instance.
-/
import proofs.«105441_j37701222924909_1_alg».proof.Proof.Gen.KernelIdeal.Launch
import proofs.«105441_j37701222924909_1_alg».proof.Proof.Gen.KernelIdeal.Skeleton
import proofs.«105441_j37701222924909_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The windows' blocks -/

/-- Window `w`'s block at point `t`, read off its array as the call finds it. -/
def blkB (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point. One statement per input window. -/
theorem beforeB_0_of {c : Dev nD} (dat : Dat τ (Elt F) Unit ℕ (UR sig nD τ) ℕ cfg1 c) (hA : dat.A 0 = V c (Pipeline.arrRef spec1 0))
    (hafter : ∀ t, dat.after 0 t = blkB V c 0 t) (t : Fin cfg1.N) (d) : dat.before 0 t d = blkB V c 0 t :=
  (dat.before_in_eq_fetched 0 rfl (fun _ => rfl) (fun _ _ _ => rfl) (fun t => by rw [hafter]; unfold Dat.blockOf blkB; rw [hA]; try rfl) t d).trans
    (by unfold Dat.fetched Dat.blockOf blkB; rw [hA]; try rfl)
theorem beforeB_1_of {c : Dev nD} (dat : Dat τ (Elt F) Unit ℕ (UR sig nD τ) ℕ cfg1 c) (hA : dat.A 1 = V c (Pipeline.arrRef spec1 1))
    (hafter : ∀ t, dat.after 1 t = blkB V c 1 t) (t : Fin cfg1.N) (d) : dat.before 1 t d = blkB V c 1 t :=
  (dat.before_in_eq_fetched 1 rfl (fun _ => rfl) (fun _ _ _ => rfl) (fun t => by rw [hafter]; unfold Dat.blockOf blkB; rw [hA]; try rfl) t d).trans
    (by unfold Dat.fetched Dat.blockOf blkB; rw [hA]; try rfl)

/-! ## The body's two conditions, decided over the grid -/

/-- "This is the first grid point", as the body computes it. -/
abbrev condFirst (i : grid1.Coords) : Prop :=
  (Scalar.cmpi .ne (Scalar.extui (Scalar.cmpi .eq (BitVec.ofNat 32 (i 0).val) 0#32)) 0#32) = 1#1
/-- "This is the last grid point", as the body computes it. -/
abbrev condLast (i : grid1.Coords) : Prop := k1_cond2 i = 1#1

theorem hcondFirst : ∀ t : Fin cfg1.N, condFirst (grid1.coords t) ↔ t.val = 0 :=
  (by decide +kernel : ∀ t : Fin grid1.N, condFirst (grid1.coords t) ↔ t.val = 0)
theorem hcondLast : ∀ t : Fin cfg1.N, condLast (grid1.coords t) ↔ t.val = 49 :=
  (by decide +kernel : ∀ t : Fin grid1.N, condLast (grid1.coords t) ↔ t.val = 49)

/-- Away from the last point the output window is idle and is not written back; at the last point it is live. -/
theorem idleB_2 : ∀ t : Fin cfg1.N, ¬condLast (grid1.coords t) → cfg1.idle 2 (grid1.coords t) = true := by decide +kernel
theorem noFlushB_2 : ∀ t : Fin cfg1.N, ¬condLast (grid1.coords t) → (cfg1.win 2).flush t = false := by decide +kernel
theorem liveB_2 : ∀ t : Fin cfg1.N, condLast (grid1.coords t) → cfg1.idle 2 (grid1.coords t) = false := by decide +kernel
theorem liveB_0 : ∀ t : Fin cfg1.N, cfg1.idle 0 (grid1.coords t) = false := by decide +kernel
theorem liveB_1 : ∀ t : Fin cfg1.N, cfg1.idle 1 (grid1.coords t) = false := by decide +kernel

/-! ## The body, run once per kind of point on abstract buffers -/

/-- The zero offsets of a whole-buffer access, however spelt. -/
theorem zero2 : (![0, 0] : Fin 2 → Nat) = fun _ => 0 := by
  funext a; match a with | ⟨0, _⟩ => rfl | ⟨1, _⟩ => rfl

set_option maxHeartbeats 2000000 in
/-- A middle point: the scratch at `s` ends at `s` plus the tile's product; the output buffer is not touched. -/
theorem kernelB_mid (c : Dev nD) (E : Set ℕ) (i : grid1.Coords) (hc0 : ¬condFirst i) (hc1 : ¬condLast i)
    (arg1 : Memref sig .tc .vmem S200x64 .f32) (harg1 : arg1.IsWhole) (arg2 : Memref sig .tc .vmem S200x12000 .f32) (harg2 : arg2.IsWhole)
    (arg3 : Memref sig .tc .vmem S64x12000 .f32) (harg3 : arg3.IsWhole) (arg4 : Memref sig .tc .vmem S64x12000 .f32) (harg4 : arg4.IsWhole)
    (x0 : Vec F S200x64 .f32) (x1 : Vec F S200x12000 .f32) (s : Vec F S64x12000 .f32) (K : PUnit → sProp 𝕄) :
    iprop(owns (c : Thread nD τ) arg1 fullShare x0 ∗ owns (c : Thread nD τ) arg2 fullShare x1 ∗ owns (c : Thread nD τ) arg4 fullShare s
        ∗ (iprop(owns (c : Thread nD τ) arg1 fullShare x0 ∗ owns (c : Thread nD τ) arg2 fullShare x1
            ∗ owns (c : Thread nD τ) arg4 fullShare (k1_pay2 x0 x1 s)) -∗ K ⟨⟩))
      ⊢ wp frame (wpE (defs₀ (F := F)) Variants.none c none) E (cc1__kernel_b i arg1 harg1 arg2 harg2 arg3 harg3 arg4 harg4) K := by
  simp only [cc1__kernel_b_eq_skeleton]; unfold cc1__kernel_b_skel
  unfold owns
  iintro ⟨⟨%f0, %hf0, H0⟩, ⟨%f1, %hf1, H1⟩, ⟨%f4, %hf4, H4⟩, Hk⟩
  subst hf0; subst hf1; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H4
  ipureintro
  rw [View.read_writes_eq_canon _ _ _ (fun y => ⟨_, List.mem_cons_self, View.mem_set_unit_zero zero2 inb_S64x12000_S64x12000_0_0 y⟩),
    View.canon_unit_zero zero2]
  simp only [View.readAt_eq_ld, View.ld_unit_zero (S := S200x64) zero2, View.ld_unit_zero (S := S200x12000) zero2,
    View.ld_unit_zero (S := S64x12000) zero2, View.readCov_unit_zero (S := S64x12000) _ zero2]

set_option maxHeartbeats 2000000 in
/-- The first point: the scratch, at anything, ends at zero plus the tile's product; the output buffer is not touched. -/
theorem kernelB_first (c : Dev nD) (E : Set ℕ) (i : grid1.Coords) (hc0 : condFirst i) (hc1 : ¬condLast i)
    (arg1 : Memref sig .tc .vmem S200x64 .f32) (harg1 : arg1.IsWhole) (arg2 : Memref sig .tc .vmem S200x12000 .f32) (harg2 : arg2.IsWhole)
    (arg3 : Memref sig .tc .vmem S64x12000 .f32) (harg3 : arg3.IsWhole) (arg4 : Memref sig .tc .vmem S64x12000 .f32) (harg4 : arg4.IsWhole)
    (x0 : Vec F S200x64 .f32) (x1 : Vec F S200x12000 .f32) (K : PUnit → sProp 𝕄) :
    iprop(owns (c : Thread nD τ) arg1 fullShare x0 ∗ owns (c : Thread nD τ) arg2 fullShare x1 ∗ (∃ d, owns (c : Thread nD τ) arg4 fullShare d)
        ∗ (iprop(owns (c : Thread nD τ) arg1 fullShare x0 ∗ owns (c : Thread nD τ) arg2 fullShare x1
            ∗ owns (c : Thread nD τ) arg4 fullShare (k1_pay2 x0 x1 (k1_pay1 (F := F)))) -∗ K ⟨⟩))
      ⊢ wp frame (wpE (defs₀ (F := F)) Variants.none c none) E (cc1__kernel_b i arg1 harg1 arg2 harg2 arg3 harg3 arg4 harg4) K := by
  simp only [cc1__kernel_b_eq_skeleton]; unfold cc1__kernel_b_skel
  unfold owns
  iintro ⟨⟨%f0, %hf0, H0⟩, ⟨%f1, %hf1, H1⟩, ⟨%d4, %f4, -, H4⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H4
  ipureintro
  sl_unfold_words
  rw [View.read_writes_eq_canon _ _ _ (fun y => ⟨_, List.mem_cons_self, View.mem_set_unit_zero zero2 inb_S64x12000_S64x12000_0_0 y⟩),
    View.canon_cons_unit_zero zero2]
  simp only [View.readAt_eq_ld, View.ld_unit_zero (S := S200x64) zero2, View.ld_unit_zero (S := S200x12000) zero2,
    View.ld_unit_zero (S := S64x12000) zero2, View.readCov_unit_zero (S := S64x12000) _ zero2]

set_option maxHeartbeats 2000000 in
/-- The last point: the scratch at `s` ends at `s` plus the tile's product, and the output buffer holds a copy of it. -/
theorem kernelB_last (c : Dev nD) (E : Set ℕ) (i : grid1.Coords) (hc0 : ¬condFirst i) (hc1 : condLast i)
    (arg1 : Memref sig .tc .vmem S200x64 .f32) (harg1 : arg1.IsWhole) (arg2 : Memref sig .tc .vmem S200x12000 .f32) (harg2 : arg2.IsWhole)
    (arg3 : Memref sig .tc .vmem S64x12000 .f32) (harg3 : arg3.IsWhole) (arg4 : Memref sig .tc .vmem S64x12000 .f32) (harg4 : arg4.IsWhole)
    (x0 : Vec F S200x64 .f32) (x1 : Vec F S200x12000 .f32) (s : Vec F S64x12000 .f32) (K : PUnit → sProp 𝕄) :
    iprop(owns (c : Thread nD τ) arg1 fullShare x0 ∗ owns (c : Thread nD τ) arg2 fullShare x1 ∗ owns (c : Thread nD τ) arg4 fullShare s
        ∗ (∃ d, owns (c : Thread nD τ) arg3 fullShare d)
        ∗ (iprop(owns (c : Thread nD τ) arg1 fullShare x0 ∗ owns (c : Thread nD τ) arg2 fullShare x1
            ∗ owns (c : Thread nD τ) arg4 fullShare (k1_pay2 x0 x1 s) ∗ owns (c : Thread nD τ) arg3 fullShare (k1_pay2 x0 x1 s)) -∗ K ⟨⟩))
      ⊢ wp frame (wpE (defs₀ (F := F)) Variants.none c none) E (cc1__kernel_b i arg1 harg1 arg2 harg2 arg3 harg3 arg4 harg4) K := by
  simp only [cc1__kernel_b_eq_skeleton]; unfold cc1__kernel_b_skel
  unfold owns
  iintro ⟨⟨%f0, %hf0, H0⟩, ⟨%f1, %hf1, H1⟩, ⟨%f4, %hf4, H4⟩, ⟨%d3, %f3, -, H3⟩, Hk⟩
  subst hf0; subst hf1; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_words
    rw [View.read_writes_eq_canon _ _ _ (fun y => ⟨_, List.mem_cons_self, View.mem_set_unit_zero zero2 inb_S64x12000_S64x12000_0_0 y⟩),
      View.canon_unit_zero zero2]
    simp only [View.readAt_eq_ld, View.ld_unit_zero (S := S200x64) zero2, View.ld_unit_zero (S := S200x12000) zero2,
    View.ld_unit_zero (S := S64x12000) zero2, View.readCov_unit_zero (S := S64x12000) _ zero2]
  iexists _; isplitr
  swap; · iexact H3
  ipureintro
  sl_unfold_words
  rw [View.read_writes_eq_canon _ _ _ (fun y => ⟨_, List.mem_cons_self, View.mem_set_unit_zero zero2 inb_S64x12000_S64x12000_0_0 y⟩),
    View.canon_unit_zero zero2]
  simp only [View.readAt_eq_ld, View.ld_unit_zero (S := S200x64) zero2, View.ld_unit_zero (S := S200x12000) zero2,
    View.ld_unit_zero (S := S64x12000) zero2, View.readCov_unit_zero (S := S64x12000) _ zero2]

/-! ## The scratch, carried from point to point -/

/-- The scratch: a whole buffer of the call's own, passed to the body beside the windows. -/
abbrev scM : Memref sig .tc .vmem S64x12000 .f32 := Memref.whole cc1_scratch0

/-- What the scratch holds after the body at point `n`: zero plus the first tile's product, then each further tile's
    product added to what the point before left. -/
def sAt (c : Dev nD) : (n : ℕ) → n < cfg1.N → Vec F S64x12000 .f32
  | 0, hn => k1_pay2 (blkB V c 0 ⟨0, hn⟩) (blkB V c 1 ⟨0, hn⟩) (k1_pay1 (F := F))
  | n + 1, hn => k1_pay2 (blkB V c 0 ⟨n + 1, hn⟩) (blkB V c 1 ⟨n + 1, hn⟩) (sAt c n (Nat.lt_of_succ_lt hn))

theorem sAt_first (c : Dev nD) (t : Fin cfg1.N) (h : t.val = 0) :
    sAt V c t.val t.isLt = k1_pay2 (blkB V c 0 t) (blkB V c 1 t) (k1_pay1 (F := F)) := by
  obtain ⟨n, hn⟩ := t
  cases n with
  | zero => rfl
  | succ n => exact absurd h (Nat.succ_ne_zero n)

theorem sAt_next (c : Dev nD) (t : Fin cfg1.N) (h : t.val ≠ 0) :
    sAt V c t.val t.isLt = k1_pay2 (blkB V c 0 t) (blkB V c 1 t) (sAt V c (t.val - 1) (Nat.lt_of_le_of_lt (Nat.sub_le _ _) t.isLt)) := by
  obtain ⟨n, hn⟩ := t
  cases n with
  | zero => exact absurd rfl h
  | succ n => rfl

/-- Every scoped buffer of the core that is neither a staging buffer of this call nor its scratch, at some contents
    each: the other calls' staging buffers, which this call never opens. -/
abbrev othersB (c : Dev nD) : sProp 𝕄 :=
  Pipeline.scopedRestBut (Ix := Unit) (Name := ℕ) (U := UR sig nD τ) (Lvl := ℕ) (Val := Elt F) spec1 c [cc1_scratch0]

/-- The state a call keeps between points when it carries nothing, with this call's scratch singled out. -/
theorem PhiA_scratch (c : Dev nD) :
    (Pipeline.ΦA spec1 c : sProp 𝕄)
      = iprop(((∃ d, owns (c : Thread nD τ) scM fullShare d) ∗ othersB c) ∗ (∃ r, prngReg c r)) := by
  unfold Pipeline.ΦA
  rw [Pipeline.scopedRest_split_of_list spec1 c [cc1_scratch0] (by decide) (by decide)]
  simp only [scM, owns_whole]
  rfl

/-- The call's state before position `n`: before the first point nothing is known of the scratch; afterwards it holds
    what the point before left. -/
def PhiB (c : Dev nD) : (n : ℕ) → n ≤ cfg1.N → sProp 𝕄
  | 0, _ => Pipeline.ΦA spec1 c
  | n + 1, hn => iprop((owns (c : Thread nD τ) scM fullShare (sAt V c n hn) ∗ othersB c) ∗ (∃ r, prngReg c r))

theorem PhiB_zero (c : Dev nD) (n : ℕ) (h : n ≤ cfg1.N) (hz : n = 0) : PhiB V c n h = Pipeline.ΦA spec1 c := by
  subst hz; rfl

theorem PhiB_succ (c : Dev nD) (n : ℕ) (hn : n < cfg1.N) :
    PhiB V c (n + 1) hn = iprop((owns (c : Thread nD τ) scM fullShare (sAt V c n hn) ∗ othersB c) ∗ (∃ r, prngReg c r)) := rfl

theorem PhiB_pos (c : Dev nD) (n : ℕ) (h : n ≤ cfg1.N) (hz : n ≠ 0) :
    PhiB V c n h = iprop((owns (c : Thread nD τ) scM fullShare (sAt V c (n - 1) (by omega)) ∗ othersB c) ∗ (∃ r, prngReg c r)) := by
  cases n with
  | zero => exact absurd rfl hz
  | succ n => rfl

/-! ## The call's proof data -/

/-- The arrays as the call finds them; after the body at point `t` each input's buffer at its block, and the output's
    named at the running sum (it is written only at the last point, where that is what the body copies into it);
    between points the scratch at the running sum; nothing owed; full shares. -/
def datB (c : Dev nD) : Dat τ (Elt F) Unit ℕ (UR sig nD τ) ℕ cfg1 c where
  A w := V c (Pipeline.arrRef spec1 w)
  after w t := match w with
    | ⟨0, _⟩ => blkB V c 0 t
    | ⟨1, _⟩ => blkB V c 1 t
    | ⟨2, _⟩ => sAt V c t.val t.isLt
  Φ t := PhiB V c t.val (Nat.le_of_lt_succ t.isLt)
  q _ := fullShare
  owed _ := 0

theorem A_eqB (c : Dev nD) (w : Fin cfg1.W) : (datB V c).A w = V c (Pipeline.arrRef spec1 w) := by
  dsimp only [datB]

theorem PhiB_castSucc (c : Dev nD) (t : Fin cfg1.N) :
    (datB V c).Φ t.castSucc = PhiB V c t.val (Nat.le_of_lt t.isLt) := by
  dsimp only [datB]; simp only [Fin.coe_castSucc]

theorem afterB_0 (c : Dev nD) (t : Fin cfg1.N) : (datB V c).after 0 t = blkB V c 0 t := by dsimp only [datB]
theorem afterB_1 (c : Dev nD) (t : Fin cfg1.N) : (datB V c).after 1 t = blkB V c 1 t := by dsimp only [datB]
theorem afterB_2 (c : Dev nD) (t : Fin cfg1.N) : (datB V c).after 2 t = sAt V c t.val t.isLt := by dsimp only [datB]

theorem beforeB_0 (c : Dev nD) (t : Fin cfg1.N) (d) : (datB V c).before 0 t d = blkB V c 0 t :=
  beforeB_0_of V (datB V c) (A_eqB V c 0) (afterB_0 V c) t d
theorem beforeB_1 (c : Dev nD) (t : Fin cfg1.N) (d) : (datB V c).before 1 t d = blkB V c 1 t :=
  beforeB_1_of V (datB V c) (A_eqB V c 1) (afterB_1 V c) t d

/-! ## The per-point obligation -/

/-- What the body is called with at point `t`, the windows one by one, -/
def bodyPreB (c : Dev nD) (t : Fin cfg1.N) : sProp 𝕄 :=
  iprop((datB V c).Φ t.castSucc ∗ (datB V c).owesAt () t.castSucc
    ∗ (∃ d, owns (c : Thread nD τ) (st1_0 t) fullShare ((datB V c).before 0 t d))
    ∗ (∃ d, owns (c : Thread nD τ) (st1_1 t) fullShare ((datB V c).before 1 t d))
    ∗ (∃ d, owns (c : Thread nD τ) (st1_2 t) fullShare ((datB V c).before 2 t d)))

/-- and what it returns. -/
def bodyPostB (c : Dev nD) (t : Fin cfg1.N) : sProp 𝕄 :=
  iprop((datB V c).Φ t.succ ∗ (datB V c).owesAt () t.succ
    ∗ (datB V c).leavesExact 0 t
    ∗ (datB V c).leavesExact 1 t
    ∗ (datB V c).leavesExact 2 t)

set_option maxHeartbeats 2000000 in
/-- The body at any point, by the kind of point. The inputs' buffers hold their blocks; the state between points
    hands the body its scratch — at anything before the first point, at the running sum afterwards — and takes it
    back at the running sum one tile further; away from the last point the output buffer goes back as it came, at the
    last point it holds the running sum. -/
theorem sound_bodyB (c : Dev nD) (t : Fin cfg1.N) :
    bodyPreB V c t ⊢ wp frame (wpE (defs₀ (F := F)) Variants.none c none) Set.univ (bodyAt1 t) (fun _ => bodyPostB V c t) := by
  unfold bodyPreB bodyPostB bodyAt1
  simp only [beforeB_0, beforeB_1]
  rw [show (datB V c).owesAt () t.succ = (datB V c).owesAt () t.castSucc from rfl]
  rw [show (datB V c).Φ t.succ = PhiB V c (t.val + 1) t.isLt from rfl, PhiB_succ]
  rw [show (datB V c).leavesExact 0 t = owns (c : Thread nD τ) (st1_0 t) fullShare ((datB V c).after 0 t) from by
    unfold Dat.leavesExact; rw [liveB_0 t], afterB_0]
  rw [show (datB V c).leavesExact 1 t = owns (c : Thread nD τ) (st1_1 t) fullShare ((datB V c).after 1 t) from by
    unfold Dat.leavesExact; rw [liveB_1 t], afterB_1]
  have hN : t.val < 50 := lt_of_lt_of_eq t.isLt (show cfg1.N = 50 from N_1)
  by_cases hfirst : t.val = 0
  · -- the first point
    have hc0 : condFirst (grid1.coords t) := (hcondFirst t).mpr hfirst
    have hc1 : ¬condLast (grid1.coords t) := fun h => by have := (hcondLast t).mp h; omega
    rw [Dat.leavesExact_idle (datB V c) 2 t (idleB_2 t hc1) (noFlushB_2 t hc1)]
    rw [sAt_first V c t hfirst]
    rw [PhiB_castSucc V c t, PhiB_zero V c _ _ hfirst, PhiA_scratch]
    iintro ⟨⟨⟨HS, Hoth⟩, Hg⟩, Ho, ⟨%d0, H0⟩, ⟨%d1, H1⟩, H2⟩
    iapply (kernelB_first c Set.univ (grid1.coords t) hc0 hc1 _ _ _ _ _ _ _ _ (blkB V c 0 t) (blkB V c 1 t) _)
    isplitl [H0]; · iexact H0
    isplitl [H1]; · iexact H1
    isplitl [HS]; · iexact HS
    iintro ⟨H0, H1, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    iexact H2
  · by_cases hlast : t.val = 49
    · -- the last point
      have hc0 : ¬condFirst (grid1.coords t) := fun h => hfirst ((hcondFirst t).mp h)
      have hc1 : condLast (grid1.coords t) := (hcondLast t).mpr hlast
      rw [show (datB V c).leavesExact 2 t = owns (c : Thread nD τ) (st1_2 t) fullShare ((datB V c).after 2 t) from by
        unfold Dat.leavesExact; rw [liveB_2 t hc1], afterB_2]
      rw [sAt_next V c t hfirst]
      rw [PhiB_castSucc V c t, PhiB_pos V c _ _ hfirst]
      iintro ⟨⟨⟨HS, Hoth⟩, Hg⟩, Ho, ⟨%d0, H0⟩, ⟨%d1, H1⟩, ⟨%d2, H2⟩⟩
      iapply (kernelB_last c Set.univ (grid1.coords t) hc0 hc1 _ _ _ _ _ _ _ _ (blkB V c 0 t) (blkB V c 1 t) _ _)
      isplitl [H0]; · iexact H0
      isplitl [H1]; · iexact H1
      isplitl [HS]; · iexact HS
      isplitl [H2]; · iexists _; iexact H2
      iintro ⟨H0, H1, HS, H2⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · -- a middle point
      have hc0 : ¬condFirst (grid1.coords t) := fun h => hfirst ((hcondFirst t).mp h)
      have hc1 : ¬condLast (grid1.coords t) := fun h => hlast ((hcondLast t).mp h)
      rw [Dat.leavesExact_idle (datB V c) 2 t (idleB_2 t hc1) (noFlushB_2 t hc1)]
      rw [sAt_next V c t hfirst]
      rw [PhiB_castSucc V c t, PhiB_pos V c _ _ hfirst]
      iintro ⟨⟨⟨HS, Hoth⟩, Hg⟩, Ho, ⟨%d0, H0⟩, ⟨%d1, H1⟩, H2⟩
      iapply (kernelB_mid c Set.univ (grid1.coords t) hc0 hc1 _ _ _ _ _ _ _ _ (blkB V c 0 t) (blkB V c 1 t) _ _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2

/-- The pipelined call's obligation, at every point. -/
theorem body_obligationB (c : Dev nD) : BodyObligation (datB (F := F) V c) (defs₀ (F := F)) Variants.none () Set.univ := fun t => by
  rw [bigSep_W1, bigSep_W1]
  exact sound_bodyB V c t

/-- What the launch hands the call is its state before the first point. -/
theorem hinB (c : Dev nD) : Pipeline.ΦA spec1 c ⊢ (datB V c).Φ 0 := by
  rw [show (datB V c).Φ 0 = PhiB V c 0 (Nat.zero_le _) from rfl, PhiB_zero V c 0 _ rfl]
  try exact Idealize.SL.BI.Entails.refl _

/-- After the last point the call's state gives back what it was handed: the scratch's contents are forgotten. -/
theorem houtB (c : Dev nD) : (datB V c).Φ (Fin.last cfg1.N) ⊢ Pipeline.ΦA spec1 c := by
  rw [show (datB V c).Φ (Fin.last cfg1.N) = PhiB V c (Fin.last cfg1.N).val (Nat.le_of_lt_succ (Fin.last cfg1.N).isLt) from rfl,
    PhiB_pos V c _ _ (by rw [Fin.val_last]; have : cfg1.N = 50 := N_1; omega), PhiA_scratch]
  iintro ⟨⟨HS, Hoth⟩, Hg⟩
  isplitl [HS Hoth]
  · isplitl [HS]; · iexists _; iexact HS
    iexact Hoth
  iexact Hg

end Cert.KernelIdeal.Frame

end
-- ==== Proof.KI_RegionC.lean ====
/-
  The third pallas_call: `rating = left_scaled @ right`, one tile of 200 user rows per grid point.

  At grid point `t` the body reads rows `200·t … 200·t + 199` of the scaled left factor (all 64 columns) and the whole
  64 × 12000 right factor, and stores their product into its 200 × 12000 output block. Nothing is carried between
  points. As for the first call: what the body leaves in each staging buffer as a function of the blocks it found, the
  body run once on abstract buffers, and the per-point obligation of the pipelined call, for any contents `V` of the
  arrays at entry and at any float instance.
-/
import proofs.«105441_j37701222924909_1_alg».proof.Proof.Gen.KernelIdeal.Launch
import proofs.«105441_j37701222924909_1_alg».proof.Proof.Gen.KernelIdeal.Skeleton
import proofs.«105441_j37701222924909_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The windows' blocks -/

/-- Window `w`'s block at point `t`, read off its array as the call finds it. -/
def blkC (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: where it is not
    fetched its block index has not moved. One statement per input window. -/
theorem beforeC_0_of {c : Dev nD} (dat : Dat τ (Elt F) Unit ℕ (UR sig nD τ) ℕ cfg2 c) (hA : dat.A 0 = V c (Pipeline.arrRef spec2 0))
    (hafter : ∀ t, dat.after 0 t = blkC V c 0 t) (t : Fin cfg2.N) (d) : dat.before 0 t d = blkC V c 0 t :=
  (dat.before_in_eq_fetched 0 rfl (fun _ => rfl) (fun _ _ _ => rfl) (fun t => by rw [hafter]; unfold Dat.blockOf blkC; rw [hA]; try rfl) t d).trans
    (by unfold Dat.fetched Dat.blockOf blkC; rw [hA]; try rfl)
theorem beforeC_1_of {c : Dev nD} (dat : Dat τ (Elt F) Unit ℕ (UR sig nD τ) ℕ cfg2 c) (hA : dat.A 1 = V c (Pipeline.arrRef spec2 1))
    (hafter : ∀ t, dat.after 1 t = blkC V c 1 t) (t : Fin cfg2.N) (d) : dat.before 1 t d = blkC V c 1 t :=
  (dat.before_in_eq_fetched 1 rfl (fun _ => rfl) (fun _ _ _ => rfl) (fun t => by rw [hafter]; unfold Dat.blockOf blkC; rw [hA]; try rfl) t d).trans
    (by unfold Dat.fetched Dat.blockOf blkC; rw [hA]; try rfl)

/-! ## What the body stores -/

/-- The whole 200 × 12000 output block. -/
abbrev rC : Rect S200x12000 := Rect.unit (s := S200x12000) ![0, 0] S200x12000.size inb_S200x12000_S200x12000_0_0

/-- The output block after the body, from the two input blocks: its one store. -/
def outC (x0 : Vec F S200x64 .f32) (x1 : Vec F S64x12000 .f32) : Vec F S200x12000 .f32 :=
  View.canon [⟨rC, k2_pay1 (View.ld x0 (Rect.unit (s := S200x64) ![0, 0] S200x64.size inb_S200x64_S200x64_0_0))
    (View.ld x1 (Rect.unit (s := S64x12000) ![0, 0] S64x12000.size inb_S64x12000_S64x12000_0_0))⟩]

/-- The one store covers the block. -/
theorem coverC (p0 : Vec F S200x12000 .f32) (y : S200x12000.Idx) :
    ∃ pc ∈ ([⟨rC, p0⟩] : List (View.Piece (Elt F) S200x12000 .f32)), y ∈ pc.1.set :=
  View.cover_of_tiled [⟨rC, p0⟩] S200x12000.size (by rfl) y

/-! ## The body, run once on abstract buffers -/

set_option maxHeartbeats 1000000 in
/-- On whole staging buffers, the inputs' at contents `x0 x1` and the output's at anything, the body runs to the
    continuation with the inputs as they were and the output at `outC x0 x1`. -/
theorem sound_kernelC (c : Dev nD) (E : Set ℕ) (i : grid2.Coords)
    (arg1 : Memref sig .tc .vmem S200x64 .f32) (harg1 : arg1.IsWhole) (arg2 : Memref sig .tc .vmem S64x12000 .f32) (harg2 : arg2.IsWhole)
    (arg3 : Memref sig .tc .vmem S200x12000 .f32) (harg3 : arg3.IsWhole)
    (x0 : Vec F S200x64 .f32) (x1 : Vec F S64x12000 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (outC x0 x1)) -∗ K ⟨⟩))
      ⊢ wp frame (wpE (defs₀ (F := F)) Variants.none c none) E (cc2__kernel_c i arg1 harg1 arg2 harg2 arg3 harg3) K := by
  simp only [cc2__kernel_c_eq_skeleton]; unfold cc2__kernel_c_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverC _)

/-! ## The call's proof data -/

/-- The arrays as the call finds them; after the body at point `t` each input's buffer at its block and the output's at
    `outC` of the input blocks; between points nothing of the call's own is kept; nothing owed; full shares. -/
def datC (c : Dev nD) : Dat τ (Elt F) Unit ℕ (UR sig nD τ) ℕ cfg2 c where
  A w := V c (Pipeline.arrRef spec2 w)
  after w t := match w with
    | ⟨0, _⟩ => blkC V c 0 t
    | ⟨1, _⟩ => blkC V c 1 t
    | ⟨2, _⟩ => outC (blkC V c 0 t) (blkC V c 1 t)
  Φ _ := Pipeline.ΦA spec2 c
  q _ := fullShare
  owed _ := 0

theorem A_eqC (c : Dev nD) (w : Fin cfg2.W) : (datC V c).A w = V c (Pipeline.arrRef spec2 w) := by
  dsimp only [datC]

theorem afterC_0 (c : Dev nD) (t : Fin cfg2.N) : (datC V c).after 0 t = blkC V c 0 t := by dsimp only [datC]
theorem afterC_1 (c : Dev nD) (t : Fin cfg2.N) : (datC V c).after 1 t = blkC V c 1 t := by dsimp only [datC]
theorem afterC_2 (c : Dev nD) (t : Fin cfg2.N) :
    (datC V c).after 2 t = outC (blkC V c 0 t) (blkC V c 1 t) := by dsimp only [datC]

theorem beforeC_0 (c : Dev nD) (t : Fin cfg2.N) (d) : (datC V c).before 0 t d = blkC V c 0 t :=
  beforeC_0_of V (datC V c) (A_eqC V c 0) (afterC_0 V c) t d
theorem beforeC_1 (c : Dev nD) (t : Fin cfg2.N) (d) : (datC V c).before 1 t d = blkC V c 1 t :=
  beforeC_1_of V (datC V c) (A_eqC V c 1) (afterC_1 V c) t d

/-! ## The per-point obligation -/

/-- What the body is called with at point `t`, the windows one by one, -/
def bodyPreC (c : Dev nD) (t : Fin cfg2.N) : sProp 𝕄 :=
  iprop((datC V c).Φ t.castSucc ∗ (datC V c).owesAt () t.castSucc
    ∗ (∃ d, owns (c : Thread nD τ) (st2_0 t) fullShare ((datC V c).before 0 t d))
    ∗ (∃ d, owns (c : Thread nD τ) (st2_1 t) fullShare ((datC V c).before 1 t d))
    ∗ (∃ d, owns (c : Thread nD τ) (st2_2 t) fullShare ((datC V c).before 2 t d)))

/-- and what it returns. -/
def bodyPostC (c : Dev nD) (t : Fin cfg2.N) : sProp 𝕄 :=
  iprop((datC V c).Φ t.succ ∗ (datC V c).owesAt () t.succ
    ∗ owns (c : Thread nD τ) (st2_0 t) fullShare ((datC V c).after 0 t)
    ∗ owns (c : Thread nD τ) (st2_1 t) fullShare ((datC V c).after 1 t)
    ∗ owns (c : Thread nD τ) (st2_2 t) fullShare ((datC V c).after 2 t))

/-- The body at any point: the inputs' buffers hold their blocks, so the run above applies; the state between points
    and what the core owes pass through unread. -/
theorem sound_bodyC (c : Dev nD) (t : Fin cfg2.N) :
    bodyPreC V c t ⊢ wp frame (wpE (defs₀ (F := F)) Variants.none c none) Set.univ (bodyAt2 t) (fun _ => bodyPostC V c t) := by
  unfold bodyPreC bodyPostC bodyAt2
  simp only [beforeC_0, beforeC_1]
  rw [show (datC V c).Φ t.succ = (datC V c).Φ t.castSucc from rfl,
    show (datC V c).owesAt () t.succ = (datC V c).owesAt () t.castSucc from rfl,
    afterC_0, afterC_1, afterC_2]
  iintro ⟨HΦ, Ho, ⟨%d0, H0⟩, ⟨%d1, H1⟩, ⟨%d2, H2⟩⟩
  iapply (sound_kernelC c Set.univ _ _ _ _ _ _ _ (blkC V c 0 t) (blkC V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipelined call's obligation, at every point. -/
theorem body_obligationC (c : Dev nD) : BodyObligation (datC (F := F) V c) (defs₀ (F := F)) Variants.none () Set.univ := fun t => by
  rw [bigSep_W2, bigSep_W2]
  exact sound_bodyC V c t

end Cert.KernelIdeal.Frame

end
-- ==== Proof.KI_Run.lean ====
/-
  The whole program: one stretch of three host operations (the float one, broadcast, divided by `lambda`), then the
  three pallas_calls one after the other.

  The contents of the core's unscoped buffers at each boundary are a fold from the launch memory: after the host
  stretch; after the first call, whose output array then holds what its fifty write-backs leave; after the second,
  whose output holds what its one write-back at the last point leaves; after the third. Each call is entered from
  "every unscoped buffer at the boundary's contents, the generator register at some state, nothing owed" and left at
  the same with the next boundary's contents. Every weakly fair execution terminates, and the final memory holds
  every unscoped buffer at the last boundary's contents; the arguments are read back through the fold to their launch
  contents, since no host operation and no call writes one. Stated at any float instance.
-/
import proofs.«105441_j37701222924909_1_alg».proof.Proof.KI_RegionA
import proofs.«105441_j37701222924909_1_alg».proof.Proof.KI_RegionB
import proofs.«105441_j37701222924909_1_alg».proof.Proof.KI_RegionC

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host stretch (the first call's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the first call's exit (the second's entry): its arrays at what the pipeline leaves, every other buffer as entered. -/
def W2 (c : Dev nD) : Valuation τ sig (Elt F) :=
  Pipeline.withArrays spec0 c (W1 m ρ c) fun w => (datA (V1 m ρ) c).arrAt w cfg0.N
theorem W2_arr (c : Dev nD) (w : Fin cfg0.W) :
    W2 m ρ c (Proc.devRef .tc (Pipeline.arrRef spec0 w)) = (datA (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hFA (c : Dev nD) (w : Fin cfg0.W) : (datA (V1 m ρ) c).arrAt w cfg0.N = V2 m ρ c (Pipeline.arrRef spec0 w) :=
  (W2_arr m ρ c w).symm
theorem hrestA (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- At the second call's exit (the third's entry). -/
def W3 (c : Dev nD) : Valuation τ sig (Elt F) :=
  Pipeline.withArrays spec1 c (W2 m ρ c) fun w => (datB (V2 m ρ) c).arrAt w cfg1.N
theorem W3_arr (c : Dev nD) (w : Fin cfg1.W) :
    W3 m ρ c (Proc.devRef .tc (Pipeline.arrRef spec1 w)) = (datB (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hFB (c : Dev nD) (w : Fin cfg1.W) : (datB (V2 m ρ) c).arrAt w cfg1.N = V3 m ρ c (Pipeline.arrRef spec1 w) :=
  (W3_arr m ρ c w).symm
theorem hrestB (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- At the third call's exit: what the program ends with. -/
def W4 (c : Dev nD) : Valuation τ sig (Elt F) :=
  Pipeline.withArrays spec2 c (W3 m ρ c) fun w => (datC (V3 m ρ) c).arrAt w cfg2.N
theorem W4_arr (c : Dev nD) (w : Fin cfg2.W) :
    W4 m ρ c (Proc.devRef .tc (Pipeline.arrRef spec2 w)) = (datC (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m ρ c b
theorem hFC (c : Dev nD) (w : Fin cfg2.W) : (datC (V3 m ρ) c).arrAt w cfg2.N = V4 m ρ c (Pipeline.arrRef spec2 w) :=
  (W4_arr m ρ c w).symm
theorem hrestC (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := (W3_arr m ρ c 0).trans (((datB (V2 m ρ) c).arrAt_in 0 rfl _).trans (A_eqB (V2 m ρ) c 0))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := (W2_arr m ρ c 1).trans (((datA (V1 m ρ) c).arrAt_in 1 rfl _).trans (A_eqA (V1 m ρ) c 1))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := (W3_arr m ρ c 1).trans (((datB (V2 m ρ) c).arrAt_in 1 rfl _).trans (A_eqB (V2 m ρ) c 1))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := (W2_arr m ρ c 0).trans (((datA (V1 m ρ) c).arrAt_in 0 rfl _).trans (A_eqA (V1 m ρ) c 0))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ## The proof data family and the thread state -/

/-- No call has a prefetched table. -/
abbrev adm : (p : Fin 3) → (pcfgs (F := F) p).Adm := fun p => (cfgs p).toPCfg_adm
/-- Every call's proof data, each at its entry contents. -/
def pdats : (p : Fin 3) → (c : Dev nD) → Dat τ (Elt F) Unit ℕ (UR sig nD τ) ℕ (Pipeline.pin (pcfgs (F := F)) adm p) c
  | ⟨0, _⟩ => fun c => datA (V1 m ρ) c
  | ⟨1, _⟩ => fun c => datB (V2 m ρ) c
  | ⟨2, _⟩ => fun c => datC (V3 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- The host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh' : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The calls as segments -/

set_option backward.isDefEq.respectTransparency.types false in
def regA : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligationA (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hFA m ρ c) (hrestA m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def regB : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligationB (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (houtB (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hFB m ρ c) (hrestB m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def regC : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligationC (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hFC m ρ c) (hrestC m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's four segments in order. -/
abbrev segs : List (Pipeline.Seg (pcfgs (F := F)) adm (pdats m ρ) () defs₀ 𝒱₀ L lv) :=
  [ .host (hseg hostOps0 hostOps0_sub hostOps0_fresh' (W0 m ρ)),
    .region (regA m ρ),
    .region (regB m ρ),
    .region (regC m ρ) ]
/-- The program is the run of its segments. -/
theorem main_run (c : Dev nD) : main (F := F) c = Pipeline.Seg.run (segs m ρ) := (main_chain c).trans (by chain_rfl)

set_option backward.isDefEq.respectTransparency.types false in
/-- From any memory with zero counters every weakly fair execution of the program terminates, nothing faulting, and the
    final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: the program runs and its five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

end Cert.KernelIdeal.Frame

end
-- ==== Proof.Payloads.lean ====
/-
  The four payloads of the idealized kernel's bodies, read at an index, over the extended reals.

  A change of float format is the identity on extended reals; a matrix product accumulated into the zero splat is
  the plain sum of products over the contracted axis; a shape cast to the same shape is the identity; a vector
  [64] viewed as [1, 64] and broadcast to [200, 64] reads the vector at the column; the float zero word is 0.
  So, with p a row of a 200-row tile, k one of the 64 singular directions and i one of the 12000 items:
    first body:   (∑ i, x0[p, i] · x1[i, k]) · x2[k];
    second body:  the zero splat, 0 at every (k, i); and the accumulator step s[k, i] + ∑ r, x0[r, k] · x1[r, i]
                  (both operands contracted over their row axis: the transposed left operand times the right one);
    third body:   ∑ k, x0[p, k] · x1[k, i].
-/
import proofs.«105441_j37701222924909_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-- The second body's first store: the zero splat. -/
theorem k1_pay1_apply (k : Fin 64) (i : Fin 12000) : k1_pay1 (F := Ideal) (ix2 k i) = 0 := by
  unfold k1_pay1
  rw [shapeCast_self]
  show Ideal.ofBits .f32 0x00000000#32 = 0
  exact Ideal.ofBits_zero_f32

/-! ## The third body: a plain product -/

theorem lhs_k2_0 (j : S200x12000.Idx) (q : dot_S200x64_S64x12000_S200x12000_1_0_0_1_n_n.contr.Idx) :
    (dot_S200x64_S64x12000_S200x12000_1_0_0_1_n_n.lhsIdx j q 0).val = (j 0).val := by
  unfold DotDims.lhsIdx
  rw [dif_neg (show ¬(0 : Fin S200x64.rank) ∈ dot_S200x64_S64x12000_S200x12000_1_0_0_1_n_n.lhsBatch by decide), dif_pos (show (0 : Fin S200x64.rank) ∈ dot_S200x64_S64x12000_S200x12000_1_0_0_1_n_n.lhsNonContracting by decide)]
  rfl
theorem lhs_k2_1 (j : S200x12000.Idx) (q : dot_S200x64_S64x12000_S200x12000_1_0_0_1_n_n.contr.Idx) :
    (dot_S200x64_S64x12000_S200x12000_1_0_0_1_n_n.lhsIdx j q 1).val = (q ⟨0, by decide⟩).val :=
  dot_S200x64_S64x12000_S200x12000_1_0_0_1_n_n.lhsIdx_val_of_single rfl j q
theorem rhs_k2_0 (j : S200x12000.Idx) (q : dot_S200x64_S64x12000_S200x12000_1_0_0_1_n_n.contr.Idx) :
    (dot_S200x64_S64x12000_S200x12000_1_0_0_1_n_n.rhsIdx j q 0).val = (q ⟨0, by decide⟩).val :=
  dot_S200x64_S64x12000_S200x12000_1_0_0_1_n_n.rhsIdx_val_of_single rfl j q
theorem rhs_k2_1 (j : S200x12000.Idx) (q : dot_S200x64_S64x12000_S200x12000_1_0_0_1_n_n.contr.Idx) :
    (dot_S200x64_S64x12000_S200x12000_1_0_0_1_n_n.rhsIdx j q 1).val = (j 1).val := by
  unfold DotDims.rhsIdx
  rw [dif_neg (show ¬(1 : Fin S64x12000.rank) ∈ dot_S200x64_S64x12000_S200x12000_1_0_0_1_n_n.rhsBatch by decide), dif_pos (show (1 : Fin S64x12000.rank) ∈ dot_S200x64_S64x12000_S200x12000_1_0_0_1_n_n.rhsNonContracting by decide)]
  rfl

/-- The third body's store: row p of the left block times column i of the right one. -/
theorem k2_pay1_apply (x0 : Vec Ideal S200x64 .f32) (x1 : Vec Ideal S64x12000 .f32) (p : Fin 200) (i : Fin 12000) :
    k2_pay1 (F := Ideal) x0 x1 (ix2 p i) = ∑ k : Fin 64, x0 (ix2 p k) * x1 (ix2 k i) := by
  unfold k2_pay1
  rw [shapeCast_self, shapeCast_self]
  simp only [matmul]
  rw [Ideal.matmul_constant_zero_apply, ← Equiv.sum_comp (contrEquiv1 dot_S200x64_S64x12000_S200x12000_1_0_0_1_n_n 64 rfl rfl).symm]
  refine Finset.sum_congr rfl fun k _ => ?_
  have hk := contrEquiv1_symm_val dot_S200x64_S64x12000_S200x12000_1_0_0_1_n_n 64 rfl rfl k
  have el : dot_S200x64_S64x12000_S200x12000_1_0_0_1_n_n.lhsIdx (ix2 p i) ((contrEquiv1 dot_S200x64_S64x12000_S200x12000_1_0_0_1_n_n 64 rfl rfl).symm k) = ix2 p k := funext fun a => Fin.ext (by
    match a with
    | ⟨0, _⟩ => exact lhs_k2_0 _ _
    | ⟨1, _⟩ => exact (lhs_k2_1 _ _).trans hk)
  have er : dot_S200x64_S64x12000_S200x12000_1_0_0_1_n_n.rhsIdx (ix2 p i) ((contrEquiv1 dot_S200x64_S64x12000_S200x12000_1_0_0_1_n_n 64 rfl rfl).symm k) = ix2 k i := funext fun a => Fin.ext (by
    match a with
    | ⟨0, _⟩ => exact (rhs_k2_0 _ _).trans hk
    | ⟨1, _⟩ => exact rhs_k2_1 _ _)
  rw [truncf_apply, truncf_apply, el, er]

/-! ## The second body: the accumulator plus the transposed left block times the right block -/

theorem lhs_k1_0 (j : S64x12000.Idx) (q : dot_S200x64_S200x12000_S64x12000_0_0_1_1_n_n.contr.Idx) :
    (dot_S200x64_S200x12000_S64x12000_0_0_1_1_n_n.lhsIdx j q 0).val = (q ⟨0, by decide⟩).val :=
  dot_S200x64_S200x12000_S64x12000_0_0_1_1_n_n.lhsIdx_val_of_single rfl j q
theorem lhs_k1_1 (j : S64x12000.Idx) (q : dot_S200x64_S200x12000_S64x12000_0_0_1_1_n_n.contr.Idx) :
    (dot_S200x64_S200x12000_S64x12000_0_0_1_1_n_n.lhsIdx j q 1).val = (j 0).val := by
  unfold DotDims.lhsIdx
  rw [dif_neg (show ¬(1 : Fin S200x64.rank) ∈ dot_S200x64_S200x12000_S64x12000_0_0_1_1_n_n.lhsBatch by decide), dif_pos (show (1 : Fin S200x64.rank) ∈ dot_S200x64_S200x12000_S64x12000_0_0_1_1_n_n.lhsNonContracting by decide)]
  rfl
theorem rhs_k1_0 (j : S64x12000.Idx) (q : dot_S200x64_S200x12000_S64x12000_0_0_1_1_n_n.contr.Idx) :
    (dot_S200x64_S200x12000_S64x12000_0_0_1_1_n_n.rhsIdx j q 0).val = (q ⟨0, by decide⟩).val :=
  dot_S200x64_S200x12000_S64x12000_0_0_1_1_n_n.rhsIdx_val_of_single rfl j q
theorem rhs_k1_1 (j : S64x12000.Idx) (q : dot_S200x64_S200x12000_S64x12000_0_0_1_1_n_n.contr.Idx) :
    (dot_S200x64_S200x12000_S64x12000_0_0_1_1_n_n.rhsIdx j q 1).val = (j 1).val := by
  unfold DotDims.rhsIdx
  rw [dif_neg (show ¬(1 : Fin S200x12000.rank) ∈ dot_S200x64_S200x12000_S64x12000_0_0_1_1_n_n.rhsBatch by decide), dif_pos (show (1 : Fin S200x12000.rank) ∈ dot_S200x64_S200x12000_S64x12000_0_0_1_1_n_n.rhsNonContracting by decide)]
  rfl

/-- The second body's later store: the accumulator at (k, i) plus the sum over the tile's rows r of the left block at
    (r, k) times the right block at (r, i). -/
theorem k1_pay2_apply (x0 : Vec Ideal S200x64 .f32) (x1 : Vec Ideal S200x12000 .f32) (s : Vec Ideal S64x12000 .f32) (k : Fin 64) (i : Fin 12000) :
    k1_pay2 (F := Ideal) x0 x1 s (ix2 k i) = s (ix2 k i) + ∑ r : Fin 200, x0 (ix2 r k) * x1 (ix2 r i) := by
  unfold k1_pay2
  rw [shapeCast_self, addf_apply]
  refine congrArg (s (ix2 k i) + ·) ?_
  simp only [matmul]
  rw [Ideal.matmul_constant_zero_apply, ← Equiv.sum_comp (contrEquiv1 dot_S200x64_S200x12000_S64x12000_0_0_1_1_n_n 200 rfl rfl).symm]
  refine Finset.sum_congr rfl fun r _ => ?_
  have hr := contrEquiv1_symm_val dot_S200x64_S200x12000_S64x12000_0_0_1_1_n_n 200 rfl rfl r
  have el : dot_S200x64_S200x12000_S64x12000_0_0_1_1_n_n.lhsIdx (ix2 k i) ((contrEquiv1 dot_S200x64_S200x12000_S64x12000_0_0_1_1_n_n 200 rfl rfl).symm r) = ix2 r k := funext fun a => Fin.ext (by
    match a with
    | ⟨0, _⟩ => exact (lhs_k1_0 _ _).trans hr
    | ⟨1, _⟩ => exact lhs_k1_1 _ _)
  have er : dot_S200x64_S200x12000_S64x12000_0_0_1_1_n_n.rhsIdx (ix2 k i) ((contrEquiv1 dot_S200x64_S200x12000_S64x12000_0_0_1_1_n_n 200 rfl rfl).symm r) = ix2 r i := funext fun a => Fin.ext (by
    match a with
    | ⟨0, _⟩ => exact (rhs_k1_0 _ _).trans hr
    | ⟨1, _⟩ => exact rhs_k1_1 _ _)
  rw [truncf_apply, truncf_apply, el, er]

/-! ## The first body: a plain product, scaled column by column -/

theorem lhs_k0_0 (j : S200x64.Idx) (q : dot_S200x12000_S12000x64_S200x64_1_0_0_1_n_n.contr.Idx) :
    (dot_S200x12000_S12000x64_S200x64_1_0_0_1_n_n.lhsIdx j q 0).val = (j 0).val := by
  unfold DotDims.lhsIdx
  rw [dif_neg (show ¬(0 : Fin S200x12000.rank) ∈ dot_S200x12000_S12000x64_S200x64_1_0_0_1_n_n.lhsBatch by decide), dif_pos (show (0 : Fin S200x12000.rank) ∈ dot_S200x12000_S12000x64_S200x64_1_0_0_1_n_n.lhsNonContracting by decide)]
  rfl
theorem lhs_k0_1 (j : S200x64.Idx) (q : dot_S200x12000_S12000x64_S200x64_1_0_0_1_n_n.contr.Idx) :
    (dot_S200x12000_S12000x64_S200x64_1_0_0_1_n_n.lhsIdx j q 1).val = (q ⟨0, by decide⟩).val :=
  dot_S200x12000_S12000x64_S200x64_1_0_0_1_n_n.lhsIdx_val_of_single rfl j q
theorem rhs_k0_0 (j : S200x64.Idx) (q : dot_S200x12000_S12000x64_S200x64_1_0_0_1_n_n.contr.Idx) :
    (dot_S200x12000_S12000x64_S200x64_1_0_0_1_n_n.rhsIdx j q 0).val = (q ⟨0, by decide⟩).val :=
  dot_S200x12000_S12000x64_S200x64_1_0_0_1_n_n.rhsIdx_val_of_single rfl j q
theorem rhs_k0_1 (j : S200x64.Idx) (q : dot_S200x12000_S12000x64_S200x64_1_0_0_1_n_n.contr.Idx) :
    (dot_S200x12000_S12000x64_S200x64_1_0_0_1_n_n.rhsIdx j q 1).val = (j 1).val := by
  unfold DotDims.rhsIdx
  rw [dif_neg (show ¬(1 : Fin S12000x64.rank) ∈ dot_S200x12000_S12000x64_S200x64_1_0_0_1_n_n.rhsBatch by decide), dif_pos (show (1 : Fin S12000x64.rank) ∈ dot_S200x12000_S12000x64_S200x64_1_0_0_1_n_n.rhsNonContracting by decide)]
  rfl

/-- The first body's store: row p of the left block times column k of the right one, times the vector at k. -/
theorem k0_pay1_apply (x0 : Vec Ideal S200x12000 .f32) (x1 : Vec Ideal S12000x64 .f32) (x2 : Vec Ideal S64 .f32) (p : Fin 200) (k : Fin 64) :
    k0_pay1 (F := Ideal) x0 x1 x2 (ix2 p k) = (∑ i : Fin 12000, x0 (ix2 p i) * x1 (ix2 i k)) * x2 (ix1 k) := by
  unfold k0_pay1
  rw [shapeCast_self, mulf_apply]
  refine congrArg₂ (· * ·) ?_ ?_
  · simp only [matmul]
    rw [Ideal.matmul_constant_zero_apply, ← Equiv.sum_comp (contrEquiv1 dot_S200x12000_S12000x64_S200x64_1_0_0_1_n_n 12000 rfl rfl).symm]
    refine Finset.sum_congr rfl fun i _ => ?_
    have hi := contrEquiv1_symm_val dot_S200x12000_S12000x64_S200x64_1_0_0_1_n_n 12000 rfl rfl i
    have el : dot_S200x12000_S12000x64_S200x64_1_0_0_1_n_n.lhsIdx (ix2 p k) ((contrEquiv1 dot_S200x12000_S12000x64_S200x64_1_0_0_1_n_n 12000 rfl rfl).symm i) = ix2 p i := funext fun a => Fin.ext (by
      match a with
      | ⟨0, _⟩ => exact lhs_k0_0 _ _
      | ⟨1, _⟩ => exact (lhs_k0_1 _ _).trans hi)
    have er : dot_S200x12000_S12000x64_S200x64_1_0_0_1_n_n.rhsIdx (ix2 p k) ((contrEquiv1 dot_S200x12000_S12000x64_S200x64_1_0_0_1_n_n 12000 rfl rfl).symm i) = ix2 i k := funext fun a => Fin.ext (by
      match a with
      | ⟨0, _⟩ => exact (rhs_k0_0 _ _).trans hi
      | ⟨1, _⟩ => exact rhs_k0_1 _ _)
    rw [truncf_apply, truncf_apply, el, er]
  · refine (broadcastTo_1b_ab_apply _ _ p k).trans ?_
    exact shapeCast_a_1a_apply x2 _ (0 : Fin 1) k

end Cert.KernelIdeal.Pay

end
-- ==== Proof.KI_ValueA.lean ====
/-
  What the first call's output array holds after its last grid point, over the extended reals.

  The output array has 10000 rows and 64 columns and is written in 50 blocks of 200 rows: grid point t writes rows
  200·t … 200·t + 199, all 64 columns, and every point writes its block back. At point t the body finds rows
  200·t … 200·t + 199 of norm_adj (all 12000 columns), the whole of item_sv and the whole reciprocal vector, and stores
  the product of the row tile with item_sv, each column k scaled by the k-th reciprocal. So row p of block t is row
  u = 200·t + p of ONE function of the arrays found at entry,
      (u, k) ↦ (∑ i, norm_adj[u, i] · item_sv[i, k]) · recip[k],
  and since the 50 blocks cover every row (row u lies in block u / 200), the array ends holding that function.
-/
import proofs.«105441_j37701222924909_1_alg».proof.Proof.KI_RegionA
import proofs.«105441_j37701222924909_1_alg».proof.Proof.Payloads
import Idealize.ShloMosaic.Lib.Pipeline.Value
import Idealize.ShloMosaic.Lib.ValueIdx
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Pay

-- the TensorCore's buffer contents when the call is entered
variable (V : (c : Dev nD) → (b : Ref sig .tc) → Buf (Elt Ideal) ((c : Thread nD τ).loc b))

/-! ## The body's store -/

theorem zero2' : (![0, 0] : Fin 2 → Nat) = fun _ => 0 := funext fun a => by
  match a with
  | ⟨0, _⟩ => rfl
  | ⟨1, _⟩ => rfl
theorem zero1' : (![0] : Fin 1 → Nat) = fun _ => 0 := funext fun a => by
  match a with
  | ⟨0, _⟩ => rfl

/-- The body's one store through the whole block leaves its payload. -/
theorem outA_eq (x0 : Vec Ideal S200x12000 .f32) (x1 : Vec Ideal S12000x64 .f32) (x2 : Vec Ideal S64 .f32) :
    outA (F := Ideal) x0 x1 x2 = k0_pay1 (F := Ideal) x0 x1 x2 := by
  unfold outA
  rw [View.canon_unit_zero zero2']
  simp only [View.ld_unit_zero (S := S200x12000) zero2', View.ld_unit_zero (S := S12000x64) zero2', View.ld_unit_zero (S := S64) zero1']

/-! ## The function the array ends at -/

/-- Row u, column k of (norm_adj @ item_sv), scaled by the k-th reciprocal. -/
def arrA (na : Vec Ideal S10000x12000 .f32) (isv : Vec Ideal S12000x64 .f32) (il : Vec Ideal S64 .f32) : Vec Ideal S10000x64 .f32 :=
  fun j => (∑ i : Fin 12000, na (ix2 (j 0) i) * isv (ix2 i (j 1))) * il (ix1 (j 1))
theorem arrA_apply (na : Vec Ideal S10000x12000 .f32) (isv : Vec Ideal S12000x64 .f32) (il : Vec Ideal S64 .f32) (u : Fin 10000) (k : Fin 64) :
    arrA na isv il (ix2 u k) = (∑ i : Fin 12000, na (ix2 u i) * isv (ix2 i k)) * il (ix1 k) := rfl

/-! ## The blocks, by coordinates -/

/-- The four index maps over the grid: the row tile and the output block move with the point, on the row axis; the
    two whole operands stay. -/
theorem idx_factsA : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

theorem ltN_A (t : Fin cfg0.N) : t.val < 50 := by
  have h : t.val < cfg0.N := t.isLt
  have e : cfg0.N = 50 := N_0
  omega

/-- Row p of the tile at point t is row 200·t + p of norm_adj. -/
theorem blkA_0_apply (c : Dev nD) (t : Fin cfg0.N) (p : Fin 200) (i : Fin 12000) (u : Fin 10000) (hu : u.val = 200 * t.val + p.val) :
    (blkA V c 0 t : Vec Ideal S200x12000 .f32) (ix2 p i) = (V c main_arg4 : Vec Ideal S10000x12000 .f32) (ix2 u i) := by
  obtain ⟨e0, e1, -, -, -, -, -⟩ := idx_factsA t
  unfold blkA
  rw [View.read_apply]
  show V c main_arg4 _ = V c main_arg4 _
  congr 1
  funext a
  apply Fin.ext
  match a with
  | ⟨0, _⟩ => show win0_0.index t (0 : Fin 2) * 200 + 1 * p.val = u.val; rw [e0, hu]; omega
  | ⟨1, _⟩ => show win0_0.index t (1 : Fin 2) * 12000 + 1 * i.val = i.val; rw [e1]; omega

/-- The block of item_sv is the whole array at every point. -/
theorem blkA_1_apply (c : Dev nD) (t : Fin cfg0.N) (i : Fin 12000) (k : Fin 64) :
    (blkA V c 1 t : Vec Ideal S12000x64 .f32) (ix2 i k) = (V c main_arg2 : Vec Ideal S12000x64 .f32) (ix2 i k) := by
  obtain ⟨-, -, e0, e1, -, -, -⟩ := idx_factsA t
  unfold blkA
  rw [View.read_apply]
  show V c main_arg2 _ = V c main_arg2 _
  congr 1
  funext a
  apply Fin.ext
  match a with
  | ⟨0, _⟩ => show win0_1.index t (0 : Fin 2) * 12000 + 1 * i.val = i.val; rw [e0]; omega
  | ⟨1, _⟩ => show win0_1.index t (1 : Fin 2) * 64 + 1 * k.val = k.val; rw [e1]; omega

/-- The block of the reciprocal vector is the whole vector at every point. -/
theorem blkA_2_apply (c : Dev nD) (t : Fin cfg0.N) (k : Fin 64) :
    (blkA V c 2 t : Vec Ideal S64 .f32) (ix1 k) = (V c main_v1 : Vec Ideal S64 .f32) (ix1 k) := by
  obtain ⟨-, -, -, -, e0, -, -⟩ := idx_factsA t
  unfold blkA
  rw [View.read_apply]
  show V c main_v1 _ = V c main_v1 _
  congr 1
  funext a
  apply Fin.ext
  match a with
  | ⟨0, _⟩ => show win0_2.index t (0 : Fin 1) * 64 + 1 * k.val = k.val; rw [e0]; omega

/-- Row p of the output block at point t is row 200·t + p of the output array. -/
theorem embA_3 (t : Fin cfg0.N) (p : Fin 200) (k : Fin 64) (u : Fin 10000) (hu : u.val = 200 * t.val + p.val) :
    (((cfg0.win 3).blk t).view.emb (ix2 p k) : S10000x64.Idx) = ix2 u k := by
  obtain ⟨-, -, -, -, -, e0, e1⟩ := idx_factsA t
  funext a
  apply Fin.ext
  match a with
  | ⟨0, _⟩ => show win0_3.index t (0 : Fin 2) * 200 + 1 * p.val = u.val; rw [e0, hu]; omega
  | ⟨1, _⟩ => show win0_3.index t (1 : Fin 2) * 64 + 1 * k.val = k.val; rw [e1]; omega

/-! ## What a point writes back, and the array after the last point -/

/-- Row 200·t + p of the user axis: row p of block t. -/
def rowA (t : Fin cfg0.N) (p : Fin 200) : Fin 10000 := ⟨200 * t.val + p.val, by have := ltN_A t; omega⟩

/-- What point t writes back is block t of the one function of the arrays found at entry. -/
theorem flushedA_eq (c : Dev nD) (t : Fin cfg0.N) :
    (datA V c).flushed 3 t = ((cfg0.win 3).blk t).view.read (Elt Ideal) (arrA (V c main_arg4) (V c main_arg2) (V c main_v1)) := by
  show (cfg0.win 3).cut (cfg0.grid.coords t) ((datA V c).after 3 t) = _
  rw [afterA_3, outA_eq]
  funext j
  obtain ⟨p, k, rfl⟩ : ∃ (p : Fin 200) (k : Fin 64), j = ix2 p k := ⟨j 0, j 1, eq_ix2 j⟩
  rw [View.read_apply]
  show k0_pay1 (F := Ideal) (blkA V c 0 t) (blkA V c 1 t) (blkA V c 2 t) (ix2 p k)
    = arrA (V c main_arg4) (V c main_arg2) (V c main_v1) (((cfg0.win 3).blk t).view.emb (ix2 p k))
  refine (k0_pay1_apply _ _ _ p k).trans ?_
  refine Eq.trans ?_ (congrArg (arrA (V c main_arg4) (V c main_arg2) (V c main_v1)) (embA_3 t p k (rowA t p) rfl)).symm
  refine Eq.trans ?_ (arrA_apply _ _ _ (rowA t p) k).symm
  refine congrArg₂ (· * ·) (Finset.sum_congr rfl fun i _ => congrArg₂ (· * ·) ?_ ?_) ?_
  · exact blkA_0_apply V c t p i (rowA t p) rfl
  · exact blkA_1_apply V c t i k
  · exact blkA_2_apply V c t k

/-- An index of the array is in point t's block iff each coordinate is in the block's range on its axis. -/
theorem mem_blkA (t : Fin cfg0.N) (i : S10000x64.Idx) :
    i ∈ ((cfg0.win 3).blk t).view.set ↔ ∀ a : Fin 2, win0_3.index t a * S200x64.size a ≤ (i a).val ∧ (i a).val < win0_3.index t a * S200x64.size a + S200x64.size a := by
  show i ∈ ((View.whole main_v2).slice (win0_3.rect t)).set ↔ _
  rw [View.set_slice_whole, Rect.mem_set_unit]
  exact Iff.rfl

/-- Every row lies in a block: row u in block u / 200. -/
theorem coverA_3 (i : S10000x64.Idx) : ∃ t : Fin cfg0.N, (cfg0.win 3).flush t = true ∧ i ∈ ((cfg0.win 3).blk t).view.set := by
  have hi0 : (i 0).val < 10000 := (i 0).isLt
  have hi1 : (i 1).val < 64 := (i 1).isLt
  have hN : cfg0.N = 50 := N_0
  refine ⟨⟨(i 0).val / 200, by omega⟩, flush0_3 _, ?_⟩
  obtain ⟨-, -, -, -, -, e0, e1⟩ := idx_factsA ⟨(i 0).val / 200, by omega⟩
  rw [mem_blkA]
  intro a
  match a with
  | ⟨0, _⟩ =>
    show win0_3.index ⟨(i 0).val / 200, _⟩ (0 : Fin 2) * 200 ≤ (i 0).val ∧ (i 0).val < win0_3.index ⟨(i 0).val / 200, _⟩ (0 : Fin 2) * 200 + 200
    rw [e0]; show (i 0).val / 200 * 200 ≤ (i 0).val ∧ (i 0).val < (i 0).val / 200 * 200 + 200; omega
  | ⟨1, _⟩ =>
    show win0_3.index ⟨(i 0).val / 200, _⟩ (1 : Fin 2) * 64 ≤ (i 1).val ∧ (i 1).val < win0_3.index ⟨(i 0).val / 200, _⟩ (1 : Fin 2) * 64 + 64
    rw [e1]; omega

/-- The output array after the last point: the one function of the arrays found at entry. -/
theorem finalA (c : Dev nD) : (datA V c).arrAt 3 cfg0.N = arrA (V c main_arg4) (V c main_arg2) (V c main_v1) :=
  (datA V c).arrAt_eq_of_cover 3 (arrA (V c main_arg4) (V c main_arg2) (V c main_v1)) (fun t _ => flushedA_eq V c t) coverA_3

end Cert.KernelIdeal.Frame

end
-- ==== Proof.Spec.lean ====
/-
  The mathematics both programs compute, over the extended reals, on plain index functions of literal shapes.

  With U = 10000 users, I = 12000 items and K = 64 singular directions, the rating matrix is
      rating[u, i] = ∑ k, (∑ i', norm_adj[u, i'] · item_sv[i', k]) · (1 / lambda[k]) · (∑ u', user_sv[u', k] · adj[u', i]).
  The user axis is cut into 50 tiles of 200 rows; the inner sum over u' is accumulated tile by tile, so the
  partial sums over the first n + 1 tiles are named here too.
-/
import Idealize.ShloMosaic.PureOps.Ideal
import Idealize.ShloMosaic.Lib.ValueIdx

noncomputable section

namespace Cert.Spec

open Idealize.ShloMosaic Idealize.ShloMosaic.ValueIdx

/-- Row `200·t + r` of the user axis: row `r` of tile `t`. -/
def rowOf (t : Fin 50) (r : Fin 200) : Fin 10000 := ⟨200 * t.val + r.val, by omega⟩

/-- The reciprocal of singular value `k`: the quotient of the float one by `lambda[k]` on the extended reals. -/
def invLam (lam : FVec Ideal ⟨1, ![64]⟩ .f32) (k : Fin 64) : EReal :=
  Ideal.div (Ideal.ofBits .f32 0x3F800000#32) (lam (ix1 k))

/-- `(norm_adj @ item_sv)[u, k]`. -/
def left (na : FVec Ideal ⟨2, ![10000, 12000]⟩ .f32) (isv : FVec Ideal ⟨2, ![12000, 64]⟩ .f32) (u : Fin 10000) (k : Fin 64) : EReal :=
  ∑ i : Fin 12000, na (ix2 u i) * isv (ix2 i k)

/-- The left factor scaled column by column by the reciprocal singular values. -/
def leftScaled (lam : FVec Ideal ⟨1, ![64]⟩ .f32) (na : FVec Ideal ⟨2, ![10000, 12000]⟩ .f32) (isv : FVec Ideal ⟨2, ![12000, 64]⟩ .f32)
    (u : Fin 10000) (k : Fin 64) : EReal :=
  left na isv u k * invLam lam k

/-- Tile `t`'s share of `(user_svᵀ @ adj)[k, i]`: the sum over the tile's 200 rows. -/
def part (usv : FVec Ideal ⟨2, ![10000, 64]⟩ .f32) (adj : FVec Ideal ⟨2, ![10000, 12000]⟩ .f32) (t : Fin 50) (k : Fin 64) (i : Fin 12000) : EReal :=
  ∑ r : Fin 200, usv (ix2 (rowOf t r) k) * adj (ix2 (rowOf t r) i)

/-- The shares of tiles `0 … n` added up (tiles past the 50th contribute nothing). -/
def accUpTo (usv : FVec Ideal ⟨2, ![10000, 64]⟩ .f32) (adj : FVec Ideal ⟨2, ![10000, 12000]⟩ .f32) (n : ℕ) (k : Fin 64) (i : Fin 12000) : EReal :=
  ∑ t ∈ Finset.range (n + 1), if h : t < 50 then part usv adj ⟨t, h⟩ k i else 0

/-- `(user_svᵀ @ adj)[k, i]`. -/
def right (usv : FVec Ideal ⟨2, ![10000, 64]⟩ .f32) (adj : FVec Ideal ⟨2, ![10000, 12000]⟩ .f32) (k : Fin 64) (i : Fin 12000) : EReal :=
  ∑ u : Fin 10000, usv (ix2 u k) * adj (ix2 u i)

/-- The rating matrix. -/
def rating (lam : FVec Ideal ⟨1, ![64]⟩ .f32) (usv : FVec Ideal ⟨2, ![10000, 64]⟩ .f32) (isv : FVec Ideal ⟨2, ![12000, 64]⟩ .f32)
    (adj na : FVec Ideal ⟨2, ![10000, 12000]⟩ .f32) : FVec Ideal ⟨2, ![10000, 12000]⟩ .f32 :=
  fun j => ∑ k : Fin 64, leftScaled lam na isv (j 0) k * right usv adj k (j 1)

theorem rating_apply (lam : FVec Ideal ⟨1, ![64]⟩ .f32) (usv : FVec Ideal ⟨2, ![10000, 64]⟩ .f32) (isv : FVec Ideal ⟨2, ![12000, 64]⟩ .f32)
    (adj na : FVec Ideal ⟨2, ![10000, 12000]⟩ .f32) (u : Fin 10000) (i : Fin 12000) :
    rating lam usv isv adj na (ix2 u i) = ∑ k : Fin 64, leftScaled lam na isv u k * right usv adj k i := rfl

/-- The first tile alone. -/
theorem accUpTo_zero (usv : FVec Ideal ⟨2, ![10000, 64]⟩ .f32) (adj : FVec Ideal ⟨2, ![10000, 12000]⟩ .f32) (k : Fin 64) (i : Fin 12000) :
    accUpTo usv adj 0 k i = part usv adj ⟨0, by omega⟩ k i := by
  simp [accUpTo]

/-- One more tile. -/
theorem accUpTo_succ (usv : FVec Ideal ⟨2, ![10000, 64]⟩ .f32) (adj : FVec Ideal ⟨2, ![10000, 12000]⟩ .f32) (n : ℕ) (hn : n + 1 < 50)
    (k : Fin 64) (i : Fin 12000) :
    accUpTo usv adj (n + 1) k i = accUpTo usv adj n k i + part usv adj ⟨n + 1, hn⟩ k i := by
  unfold accUpTo
  rw [Finset.sum_range_succ, dif_pos hn]

end Cert.Spec

end
-- ==== Proof.TileSum.lean ====
/-
  The 10000 user rows are the 50 tiles of 200 rows each: row `200·t + r` is row `r` of tile `t`, and every row
  arises this way exactly once. Addition on the extended reals is commutative and associative, so a sum over all
  rows may be regrouped as the sum over the tiles of the sums inside each tile. Hence the shares of all 50 tiles
  added up are the whole of `(user_svᵀ @ adj)[k, i]`. No finiteness of the summands is needed.
-/
import proofs.«105441_j37701222924909_1_alg».proof.Proof.Spec
import Mathlib.Algebra.BigOperators.Fin
import Mathlib.Data.Fintype.BigOperators
import Mathlib.Logic.Equiv.Fin.Basic

noncomputable section

namespace Cert.Spec

open Idealize.ShloMosaic Idealize.ShloMosaic.ValueIdx

/-- The pairs (tile, row in the tile) are the user rows: `(t, r) ↦ r + 200·t`. -/
def tileEquiv : Fin 50 × Fin 200 ≃ Fin 10000 := finProdFinEquiv

/-- The pair `(t, r)` names row `rowOf t r`. -/
theorem tileEquiv_apply (t : Fin 50) (r : Fin 200) : tileEquiv (t, r) = rowOf t r :=
  Fin.ext (Nat.add_comm _ _)

/-- A sum over all user rows is the sum over the tiles of the sums over the rows of each tile. -/
theorem sum_rows_eq_sum_tiles (g : Fin 10000 → EReal) :
    ∑ u : Fin 10000, g u = ∑ t : Fin 50, ∑ r : Fin 200, g (rowOf t r) := by
  rw [← Equiv.sum_comp tileEquiv g, Fintype.sum_prod_type]
  refine Finset.sum_congr rfl fun t _ => Finset.sum_congr rfl fun r _ => ?_
  rw [tileEquiv_apply]

/-- All 50 tiles' shares added up are the whole sum over the user rows. -/
theorem accUpTo_last (usv : FVec Ideal ⟨2, ![10000, 64]⟩ .f32) (adj : FVec Ideal ⟨2, ![10000, 12000]⟩ .f32) (k : Fin 64) (i : Fin 12000) :
    accUpTo usv adj 49 k i = right usv adj k i := by
  unfold accUpTo right
  rw [sum_rows_eq_sum_tiles, Finset.sum_range]
  refine Finset.sum_congr rfl fun t _ => ?_
  rw [dif_pos t.isLt]
  rfl

end Cert.Spec

end
-- ==== Proof.KI_ValueB.lean ====
/-
  What the second call leaves in its output array, over the extended reals: `(user_svᵀ @ adj)` as the fifty tiles'
  products added up.

  At grid point `t` the two input blocks are block `(t, 0)` of `user_sv` (200 × 64) and of `adj` (200 × 12000): a
  block's coordinate on an axis is the block index times the block's size plus the coordinate inside the block, so
  row `r` of either block is row `200·t + r` of its array and the columns are the array's own. The body's step adds to
  the scratch, at `(k, i)`, the sum over the block's rows `r` of `user_sv[200·t + r, k] · adj[200·t + r, i]`: tile `t`'s
  share. The first point starts from the zero splat and `0 + x = x`; each later point starts from what the point before
  left. By induction on the point, the scratch after point `n` holds the shares of tiles `0 … n` added up.

  The output window has one block, block `(0, 0)` of the sizes of the whole 64 × 12000 array, so it is the whole array
  read at zero offsets; it is written back at the last point only, where the body has copied the scratch into it. That
  one block covers every index of the array, so the array ends holding the scratch after point 49: all fifty tiles'
  shares added up.
-/
import proofs.«105441_j37701222924909_1_alg».proof.Proof.KI_RegionB
import proofs.«105441_j37701222924909_1_alg».proof.Proof.Payloads
import proofs.«105441_j37701222924909_1_alg».proof.Proof.Spec
import proofs.«105441_j37701222924909_1_alg».proof.Proof.TileSum
import Idealize.ShloMosaic.Lib.Pipeline.Value
import Idealize.ShloMosaic.Lib.ValueIdx
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-- The printed index maps over the 50 points: both inputs' block at point `t` is block `(t, 0)`, the output's is
    block `(0, 0)`. -/
theorem idxB : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0 :=
  (by decide +kernel : ∀ t : Fin grid1.N, _)

/-- Row `r` of the `user_sv` block at point `n` is row `200·n + r` of `user_sv`. -/
theorem blkB_0_apply (c : Dev nD) (n : ℕ) (hn : n < cfg1.N) (r : Fin 200) (k : Fin 64) :
    blkB (F := Ideal) V c 0 ⟨n, hn⟩ (ix2 r k)
      = V c main_arg1 (ix2 (Cert.Spec.rowOf ⟨n, lt_of_lt_of_eq hn (show cfg1.N = 50 from N_1)⟩ r) k) := by
  have e0 : win1_0.index ⟨n, hn⟩ (0 : Fin 2) = n := (idxB ⟨n, hn⟩).1
  have e1 : win1_0.index ⟨n, hn⟩ (1 : Fin 2) = 0 := (idxB ⟨n, hn⟩).2.1
  unfold blkB
  rw [View.read_apply]
  show V c main_arg1 _ = V c main_arg1 _
  congr 1
  funext a
  apply Fin.ext
  match a with
  | ⟨0, _⟩ => show win1_0.index ⟨n, hn⟩ (0 : Fin 2) * 200 + 1 * r.val = 200 * n + r.val; rw [e0]; omega
  | ⟨1, _⟩ => show win1_0.index ⟨n, hn⟩ (1 : Fin 2) * 64 + 1 * k.val = k.val; rw [e1]; omega

/-- Row `r` of the `adj` block at point `n` is row `200·n + r` of `adj`. -/
theorem blkB_1_apply (c : Dev nD) (n : ℕ) (hn : n < cfg1.N) (r : Fin 200) (i : Fin 12000) :
    blkB (F := Ideal) V c 1 ⟨n, hn⟩ (ix2 r i)
      = V c main_arg3 (ix2 (Cert.Spec.rowOf ⟨n, lt_of_lt_of_eq hn (show cfg1.N = 50 from N_1)⟩ r) i) := by
  have e0 : win1_1.index ⟨n, hn⟩ (0 : Fin 2) = n := (idxB ⟨n, hn⟩).2.2.1
  have e1 : win1_1.index ⟨n, hn⟩ (1 : Fin 2) = 0 := (idxB ⟨n, hn⟩).2.2.2.1
  unfold blkB
  rw [View.read_apply]
  show V c main_arg3 _ = V c main_arg3 _
  congr 1
  funext a
  apply Fin.ext
  match a with
  | ⟨0, _⟩ => show win1_1.index ⟨n, hn⟩ (0 : Fin 2) * 200 + 1 * r.val = 200 * n + r.val; rw [e0]; omega
  | ⟨1, _⟩ => show win1_1.index ⟨n, hn⟩ (1 : Fin 2) * 12000 + 1 * i.val = i.val; rw [e1]; omega

/-- One point's step, over plain arrays: if the two blocks are tile `t`'s rows of `usv` and `adj` and the scratch
    holds `acc` at `(k, i)`, the step leaves `acc` plus tile `t`'s share there. -/
theorem step_apply (usv : FVec Ideal ⟨2, ![10000, 64]⟩ .f32) (adj : FVec Ideal ⟨2, ![10000, 12000]⟩ .f32) (t : Fin 50)
    (x0 : Vec Ideal S200x64 .f32) (x1 : Vec Ideal S200x12000 .f32) (s : Vec Ideal S64x12000 .f32)
    (h0 : ∀ (r : Fin 200) (k : Fin 64), x0 (ix2 r k) = usv (ix2 (Cert.Spec.rowOf t r) k))
    (h1 : ∀ (r : Fin 200) (i : Fin 12000), x1 (ix2 r i) = adj (ix2 (Cert.Spec.rowOf t r) i))
    (k : Fin 64) (i : Fin 12000) :
    k1_pay2 (F := Ideal) x0 x1 s (ix2 k i) = s (ix2 k i) + Cert.Spec.part usv adj t k i := by
  rw [Pay.k1_pay2_apply]
  unfold Cert.Spec.part
  refine congrArg (s (ix2 k i) + ·) (Finset.sum_congr rfl fun r _ => ?_)
  rw [h0, h1]

/-- The scratch after point n is the sum of the first n + 1 tiles' products. -/
theorem sAt_apply (c : Dev nD) (n : ℕ) (hn : n < cfg1.N) (k : Fin 64) (i : Fin 12000) :
    sAt (F := Ideal) V c n hn (ix2 k i) = Cert.Spec.accUpTo (V c main_arg1) (V c main_arg3) n k i := by
  induction n with
  | zero =>
    show k1_pay2 (F := Ideal) (blkB V c 0 ⟨0, hn⟩) (blkB V c 1 ⟨0, hn⟩) (k1_pay1 (F := Ideal)) (ix2 k i) = _
    refine (step_apply (V c main_arg1) (V c main_arg3) ⟨0, by omega⟩ _ _ _
      (fun r k => blkB_0_apply V c 0 hn r k) (fun r i => blkB_1_apply V c 0 hn r i) k i).trans ?_
    rw [Pay.k1_pay1_apply, zero_add, Cert.Spec.accUpTo_zero]
  | succ n ih =>
    have hN : cfg1.N = 50 := N_1
    show k1_pay2 (F := Ideal) (blkB V c 0 ⟨n + 1, hn⟩) (blkB V c 1 ⟨n + 1, hn⟩) (sAt V c n (Nat.lt_of_succ_lt hn)) (ix2 k i) = _
    refine (step_apply (V c main_arg1) (V c main_arg3) ⟨n + 1, by omega⟩ _ _ _
      (fun r k => blkB_0_apply V c (n + 1) hn r k) (fun r i => blkB_1_apply V c (n + 1) hn r i) k i).trans ?_
    rw [ih, Cert.Spec.accUpTo_succ _ _ n (by omega)]

/-- (user_svᵀ @ adj) as the fifty tiles' products added up. -/
def arrB (usv : Vec Ideal S10000x64 .f32) (adj : Vec Ideal S10000x12000 .f32) : Vec Ideal S64x12000 .f32 :=
  fun j => Cert.Spec.accUpTo usv adj 49 (j 0) (j 1)

theorem arrB_apply (usv : Vec Ideal S10000x64 .f32) (adj : Vec Ideal S10000x12000 .f32) (k : Fin 64) (i : Fin 12000) :
    arrB usv adj (ix2 k i) = Cert.Spec.accUpTo usv adj 49 k i := rfl

/-- The last point. -/
abbrev tLastB : Fin cfg1.N := ⟨49, by rw [show cfg1.N = 50 from N_1]; decide⟩

/-- The output's one block sits at offset zero on both axes: it is the whole array. -/
theorem offB_zero (t : Fin cfg1.N) : (fun a => win1_2.index t a * main_v3.ty.shape.size a) = fun _ => 0 := by
  obtain ⟨-, -, -, -, e0, e1⟩ := idxB t
  funext a
  match a with
  | ⟨0, _⟩ => show win1_2.index t (0 : Fin 2) * 64 = 0; rw [e0]
  | ⟨1, _⟩ => show win1_2.index t (1 : Fin 2) * 12000 = 0; rw [e1]

/-- The one write-back, at the last point, writes the fifty tiles' sum: what the scratch holds there, copied into the
    output's block, which is the whole array. -/
theorem flushedB_eq (c : Dev nD) (t : Fin cfg1.N) (hf : (cfg1.win 2).flush t = true) :
    (datB V c).flushed 2 t = ((cfg1.win 2).blk t).view.read (Elt Ideal) (arrB (V c main_arg1) (V c main_arg3)) := by
  have hN : cfg1.N = 50 := N_1
  have h49 : t.val = 49 := by have := (flush1_2 t).mp hf; have := t.isLt; omega
  obtain rfl : t = tLastB := Fin.ext h49
  show (cfg1.win 2).cut (grid1.coords tLastB) ((datB V c).after 2 tLastB) = _
  rw [afterB_2]
  refine Eq.trans ?_ (Memref.read_access_unit_zero (Elt Ideal) main_v3 (offB_zero tLastB)
    (fun a => by rw [congrFun (offB_zero tLastB) a]; simp) (arrB (V c main_arg1) (V c main_arg3))).symm
  funext j
  obtain ⟨k, i, rfl⟩ : ∃ (k : Fin 64) (i : Fin 12000), j = ix2 k i := ⟨j 0, j 1, eq_ix2 j⟩
  rw [arrB_apply]
  exact sAt_apply V c 49 tLastB.isLt k i

/-- The output array after the call: the fifty tiles' sum. The last point's block covers every index of the array. -/
theorem finalB (c : Dev nD) : (datB V c).arrAt 2 cfg1.N = arrB (V c main_arg1) (V c main_arg3) :=
  (datB V c).arrAt_eq_of_cover 2 (arrB (V c main_arg1) (V c main_arg3)) (flushedB_eq V c) fun i =>
    ⟨tLastB, (flush1_2 tLastB).mpr rfl, by
      show i ∈ ((View.whole main_v3).slice (win1_2.rect tLastB)).set
      rw [View.set_slice_whole, Rect.mem_set_unit]
      intro a
      have h0 : (i 0 : Nat) < 64 := (i 0).isLt
      have h1 : (i 1 : Nat) < 12000 := (i 1).isLt
      obtain ⟨-, -, -, -, e0, e1⟩ := idxB tLastB
      match a with
      | ⟨0, _⟩ =>
        show win1_2.index tLastB (0 : Fin 2) * 64 ≤ (i 0 : Nat) ∧ (i 0 : Nat) < win1_2.index tLastB (0 : Fin 2) * 64 + 64
        rw [e0]; omega
      | ⟨1, _⟩ =>
        show win1_2.index tLastB (1 : Fin 2) * 12000 ≤ (i 1 : Nat) ∧ (i 1 : Nat) < win1_2.index tLastB (1 : Fin 2) * 12000 + 12000
        rw [e1]; omega⟩

end Cert.KernelIdeal.Frame

end
-- ==== Proof.KI_ValueC.lean ====
/-
  The third pallas_call's output array after its last grid point, over the extended reals.

  With ls the 10000 × 64 scaled left factor and r the 64 × 12000 right factor as the call finds them, the array ends
  holding their product: row u, column i is ∑ k, ls[u, k] · r[k, i].

  Why. At point t the left factor's block is rows 200·t … 200·t + 199 of ls (block index (t, 0), blocks of 200 × 64),
  the right factor's block is all of r (block index (0, 0)), and the output's block is rows 200·t … 200·t + 199 of the
  array (block index (t, 0), blocks of 200 × 12000): a block's coordinate on an axis is its block index times the
  block's size plus the coordinate inside the block. The body's one store covers its output block and leaves the
  product of its two input blocks, so what point t writes back at row p, column i is ∑ k, ls[200·t + p, k] · r[k, i]:
  block t of the product. Every point writes its block back, and row u lies in the block of point u / 200, so the 50
  blocks cover the array; an array whose every index lies in a written-back block of one function ends holding that
  function.
-/
import proofs.«105441_j37701222924909_1_alg».proof.Proof.KI_RegionC
import proofs.«105441_j37701222924909_1_alg».proof.Proof.Payloads
import proofs.«105441_j37701222924909_1_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

-- the TensorCore's buffer contents when the call is entered
variable (V : (c : Dev nD) → (b : Ref sig .tc) → Buf (Elt Ideal) ((c : Thread nD τ).loc b))

/-- Both offsets of a whole block are zero. -/
theorem hzC : (![0, 0] : Fin 2 → Nat) = fun _ => 0 := funext fun a => by
  match a with
  | ⟨0, _⟩ => rfl
  | ⟨1, _⟩ => rfl

/-- The body's one store through the whole block leaves its payload. -/
theorem outC_eq (x0 : Vec Ideal S200x64 .f32) (x1 : Vec Ideal S64x12000 .f32) :
    outC (F := Ideal) x0 x1 = k2_pay1 (F := Ideal) x0 x1 := by
  unfold outC
  rw [View.canon_unit_zero hzC]
  simp only [View.ld_unit_zero (S := S200x64) hzC, View.ld_unit_zero (S := S64x12000) hzC]

/-- Row u, column i of the product of the two factors. -/
def arrC (ls : Vec Ideal S10000x64 .f32) (r : Vec Ideal S64x12000 .f32) : Vec Ideal S10000x12000 .f32 :=
  fun j => ∑ k : Fin 64, ls (ix2 (j 0) k) * r (ix2 k (j 1))
theorem arrC_apply (ls : Vec Ideal S10000x64 .f32) (r : Vec Ideal S64x12000 .f32) (u : Fin 10000) (i : Fin 12000) :
    arrC ls r (ix2 u i) = ∑ k : Fin 64, ls (ix2 u k) * r (ix2 k i) := rfl

/-! ## The blocks at a point -/

/-- The index maps over the grid: at point t the left factor's block and the output's block have block index (t, 0), the
    right factor's (0, 0). -/
theorem idx_factsC : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left factor's block at point t is rows 200·t … 200·t + 199 of the array, all 64 columns. -/
theorem blkC_0_apply (c : Dev nD) (t : Fin cfg2.N) (p : Fin 200) (k : Fin 64) (u : Fin 10000) (hu : u.val = 200 * t.val + p.val) :
    (blkC V c 0 t : Vec Ideal S200x64 .f32) (ix2 p k) = (V c main_v2 : Vec Ideal S10000x64 .f32) (ix2 u k) := by
  obtain ⟨e0, e1, -, -, -, -⟩ := idx_factsC t
  unfold blkC
  rw [View.read_apply]
  show V c main_v2 _ = V c main_v2 _
  congr 1
  funext a
  apply Fin.ext
  match a with
  | ⟨0, _⟩ => show win2_0.index t (0 : Fin 2) * 200 + 1 * p.val = u.val; rw [e0, hu]; omega
  | ⟨1, _⟩ => show win2_0.index t (1 : Fin 2) * 64 + 1 * k.val = k.val; rw [e1]; omega

/-- The right factor's block at every point is the whole array. -/
theorem blkC_1_apply (c : Dev nD) (t : Fin cfg2.N) (k : Fin 64) (i : Fin 12000) :
    (blkC V c 1 t : Vec Ideal S64x12000 .f32) (ix2 k i) = (V c main_v3 : Vec Ideal S64x12000 .f32) (ix2 k i) := by
  obtain ⟨-, -, e0, e1, -, -⟩ := idx_factsC t
  unfold blkC
  rw [View.read_apply]
  show V c main_v3 _ = V c main_v3 _
  congr 1
  funext a
  apply Fin.ext
  match a with
  | ⟨0, _⟩ => show win2_1.index t (0 : Fin 2) * 64 + 1 * k.val = k.val; rw [e0]; omega
  | ⟨1, _⟩ => show win2_1.index t (1 : Fin 2) * 12000 + 1 * i.val = i.val; rw [e1]; omega

/-- Row p, column i of the output's block at point t is row 200·t + p, column i of the array. -/
theorem embC_2 (t : Fin cfg2.N) (p : Fin 200) (i : Fin 12000) (u : Fin 10000) (hu : u.val = 200 * t.val + p.val) :
    ((cfg2.win 2).blk t).view.emb (ix2 p i) = (ix2 u i : S10000x12000.Idx) := by
  obtain ⟨-, -, -, -, e0, e1⟩ := idx_factsC t
  funext a
  apply Fin.ext
  match a with
  | ⟨0, _⟩ => show win2_2.index t (0 : Fin 2) * 200 + 1 * p.val = u.val; rw [e0, hu]; omega
  | ⟨1, _⟩ => show win2_2.index t (1 : Fin 2) * 12000 + 1 * i.val = i.val; rw [e1]; omega

/-! ## What a point writes back, and the array after the last point -/

/-- What point t writes back is its block of the product: the body stored row p of its left block times column i of the
    right factor, and that row is row 200·t + p of the left factor. -/
theorem flushedC_eq (c : Dev nD) (t : Fin cfg2.N) :
    (datC V c).flushed 2 t = ((cfg2.win 2).blk t).view.read (Elt Ideal) (arrC (V c main_v2) (V c main_v3)) := by
  show (cfg2.win 2).cut (grid2.coords t) ((datC V c).after 2 t) = _
  rw [afterC_2, outC_eq]
  funext j
  obtain ⟨p, i, rfl⟩ : ∃ (p : Fin 200) (i : Fin 12000), j = ix2 p i := ⟨j 0, j 1, eq_ix2 j⟩
  have hN : cfg2.N = 50 := N_2
  have ht : t.val < 50 := hN ▸ t.isLt
  refine (Pay.k2_pay1_apply (blkC V c 0 t) (blkC V c 1 t) p i).trans ?_
  show _ = arrC (V c main_v2) (V c main_v3) (((cfg2.win 2).blk t).view.emb (ix2 p i))
  rw [embC_2 t p i ⟨200 * t.val + p.val, by omega⟩ rfl, arrC_apply]
  refine Finset.sum_congr rfl fun k _ => ?_
  rw [blkC_0_apply V c t p k ⟨200 * t.val + p.val, by omega⟩ rfl, blkC_1_apply V c t k i]

/-- An index of the array is in point t's block iff each coordinate is in the block's range on its axis. -/
theorem mem_blkC (t : Fin cfg2.N) (i : S10000x12000.Idx) :
    i ∈ ((cfg2.win 2).blk t).view.set ↔ ∀ a : Fin 2, win2_2.index t a * S200x12000.size a ≤ (i a).val ∧ (i a).val < win2_2.index t a * S200x12000.size a + S200x12000.size a := by
  show i ∈ ((View.whole main_v4).slice (win2_2.rect t)).set ↔ _
  rw [View.set_slice_whole, Rect.mem_set_unit]
  exact Iff.rfl

/-- Row u of the array is in the block of point u / 200, which is written back. -/
theorem coveredC (i : S10000x12000.Idx) :
    ∃ t : Fin cfg2.N, (cfg2.win 2).flush t = true ∧ i ∈ ((cfg2.win 2).blk t).view.set := by
  have h0 : (i 0).val < 10000 := (i 0).isLt
  have h1 : (i 1).val < 12000 := (i 1).isLt
  have hN : cfg2.N = 50 := N_2
  have hq : (i 0).val / 200 < cfg2.N := by rw [hN]; omega
  obtain ⟨-, -, -, -, e0, e1⟩ := idx_factsC ⟨(i 0).val / 200, hq⟩
  refine ⟨⟨(i 0).val / 200, hq⟩, flush2_2 _, ?_⟩
  rw [mem_blkC]
  intro a
  match a with
  | ⟨0, _⟩ =>
    show win2_2.index ⟨(i 0).val / 200, hq⟩ (0 : Fin 2) * 200 ≤ (i 0).val ∧ (i 0).val < win2_2.index ⟨(i 0).val / 200, hq⟩ (0 : Fin 2) * 200 + 200
    rw [e0]; show (i 0).val / 200 * 200 ≤ (i 0).val ∧ (i 0).val < (i 0).val / 200 * 200 + 200; omega
  | ⟨1, _⟩ =>
    show win2_2.index ⟨(i 0).val / 200, hq⟩ (1 : Fin 2) * 12000 ≤ (i 1).val ∧ (i 1).val < win2_2.index ⟨(i 0).val / 200, hq⟩ (1 : Fin 2) * 12000 + 12000
    rw [e1]; omega

/-- The array after the last point: every point writes back its block of the product, and the 50 blocks of 200 rows
    cover the 10000 rows. -/
theorem finalC (c : Dev nD) : (datC V c).arrAt 2 cfg2.N = arrC (V c main_v2) (V c main_v3) :=
  (datC V c).arrAt_eq_of_cover 2 (arrC (V c main_v2) (V c main_v3)) (fun t _ => flushedC_eq V c t) coveredC

end Cert.KernelIdeal.Frame

end
-- ==== Proof.KI_Value.lean ====
/-
  The idealized kernel's result. The third call multiplies, tile by tile, what the first call left (the rows of
  `norm_adj @ item_sv`, each column scaled by its reciprocal singular value) with what the second call left (the fifty
  tiles' shares of `user_svᵀ @ adj` added up, which is the whole sum over the user axis because addition on the
  extended reals is commutative and associative); the reciprocal vector is the float one divided by `lambda`, computed
  by the host operations before the first call. So the result array ends holding the rating matrix of the launch
  arguments.
-/
import proofs.«105441_j37701222924909_1_alg».proof.Proof.KI_Run
import proofs.«105441_j37701222924909_1_alg».proof.Proof.KI_ValueA
import proofs.«105441_j37701222924909_1_alg».proof.Proof.KI_ValueB
import proofs.«105441_j37701222924909_1_alg».proof.Proof.KI_ValueC
import proofs.«105441_j37701222924909_1_alg».proof.Proof.Spec
import proofs.«105441_j37701222924909_1_alg».proof.Proof.TileSum
import Idealize.ShloMosaic.Lib.Pipeline.Value
import Idealize.ShloMosaic.Lib.ValueIdx
import Idealize.ShloMosaic.Lib.StableHlo.Run
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-! ## What each call finds in the arrays it reads -/

/-- The host stretch writes the float one, its broadcast and the quotient; no argument. -/
theorem W1_of_arg (c : Dev nD) (b : Ref sig .tc) (hb : b ∉ ([main_cst, main_v0, main_v1] : List (Ref sig .tc))) :
    W1 m ρ c (Proc.devRef .tc b) = m ((c : Thread nD τ).loc b) := by
  refine (StableHlo.after_of_forall_not_mem (b := Proc.devRef .tc b) _ _ (List.forall_iff_forall_mem.mp ?_)).trans rfl
  simp only [hostOps0, List.Forall, StableHlo.nullary_writes, StableHlo.unary_writes, StableHlo.binary_writes, Finset.mem_singleton]
  refine ⟨?_, ?_, ?_⟩ <;> refine StableHlo.devRef_ne_of_ne (fun e => hb ?_) <;> subst e <;> decide

/-- The reciprocal vector as the first call finds it: the float one over `lambda`, entry by entry. -/
theorem v1_at (c : Dev nD) (k : Fin 64) :
    (V1 m ρ c main_v1 : S64.Idx → EReal) (ix1 k)
      = Ideal.div (Ideal.ofBits .f32 0x3F800000#32) ((m ((c : Thread nD τ).loc main_arg0) : S64.Idx → EReal) (ix1 k)) := by
  have e : (V1 m ρ c main_v1 : S64.Idx → EReal)
      = Host.divf (F := Ideal) (broadcastInDim S64 ![] bcast_S_S64 (constant (F := Ideal) S_ .f32 0x3F800000#32)) (m ((c : Thread nD τ).loc main_arg0)) := by
    show StableHlo.after hostOps0 (W0 m ρ c) (Proc.devRef .tc main_v1) = _
    after_results
  rw [e]
  show Ideal.div (broadcastInDim S64 ![] bcast_S_S64 (constant (F := Ideal) S_ .f32 0x3F800000#32) (ix1 k)) _ = _
  rw [broadcastInDim_apply _ bcast_S_S64 (constant (F := Ideal) S_ .f32 0x3F800000#32) (ix1 k) (fun a => a.elim0) (fun a => a.elim0)]
  rfl

theorem V1_arg4 (c : Dev nD) : V1 m ρ c main_arg4 = m ((c : Thread nD τ).loc main_arg4) := W1_of_arg m ρ c main_arg4 (by decide)
theorem V1_arg2 (c : Dev nD) : V1 m ρ c main_arg2 = m ((c : Thread nD τ).loc main_arg2) := W1_of_arg m ρ c main_arg2 (by decide)
theorem V2_arg1 (c : Dev nD) : V2 m ρ c main_arg1 = m ((c : Thread nD τ).loc main_arg1) :=
  (W2_of_ne m ρ c main_arg1 (by decide)).trans (W1_of_arg m ρ c main_arg1 (by decide))
theorem V2_arg3 (c : Dev nD) : V2 m ρ c main_arg3 = m ((c : Thread nD τ).loc main_arg3) :=
  (W2_of_ne m ρ c main_arg3 (by decide)).trans (W1_of_arg m ρ c main_arg3 (by decide))

/-- The scaled left factor as the third call finds it: what the first call left. -/
theorem V3_v2 (c : Dev nD) :
    V3 m ρ c main_v2 = arrA (m ((c : Thread nD τ).loc main_arg4)) (m ((c : Thread nD τ).loc main_arg2)) (V1 m ρ c main_v1) := by
  refine (W3_of_ne m ρ c main_v2 (by decide)).trans ((W2_arr m ρ c 3).trans ?_)
  rw [finalA (V1 m ρ) c, V1_arg4, V1_arg2]

/-- The right factor as the third call finds it: what the second call left. -/
theorem V3_v3 (c : Dev nD) :
    V3 m ρ c main_v3 = arrB (m ((c : Thread nD τ).loc main_arg1)) (m ((c : Thread nD τ).loc main_arg3)) := by
  refine (W3_arr m ρ c 2).trans ?_
  rw [finalB (V2 m ρ) c, V2_arg1, V2_arg3]

/-! ## The result -/

/-- The program's result array ends holding the rating matrix of the launch arguments. -/
theorem result_eq (c : Dev nD) :
    W4 m ρ c (Proc.devRef .tc main_v4)
      = Cert.Spec.rating (m ((c : Thread nD τ).loc main_arg0)) (m ((c : Thread nD τ).loc main_arg1)) (m ((c : Thread nD τ).loc main_arg2))
          (m ((c : Thread nD τ).loc main_arg3)) (m ((c : Thread nD τ).loc main_arg4)) := by
  refine (W4_arr m ρ c 2).trans ?_
  rw [finalC (V3 m ρ) c, V3_v2, V3_v3]
  funext j
  obtain ⟨u, i, rfl⟩ : ∃ (u : Fin 10000) (i : Fin 12000), j = ix2 u i := ⟨j 0, j 1, eq_ix2 j⟩
  rw [arrC_apply, Cert.Spec.rating_apply]
  refine Finset.sum_congr rfl fun k _ => ?_
  rw [arrA_apply, arrB_apply, Cert.Spec.accUpTo_last, v1_at]
  rfl

/-- The run, read: the result at the rating matrix, the arguments unchanged. -/
theorem run_value : θ_run defs (onTc (τ := τ) (main (F := Ideal))) ⟨m, fun _ => 0, ρ⟩ (fun r => ∀ c : Dev nD,
      r.2.mem ((c.tc : Thread nD τ).loc main_v4)
        = Cert.Spec.rating (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v4 (by decide))).trans (result_eq m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

end Cert.KernelIdeal.Frame

end
-- ==== Proof.RefValue.lean ====
/-
  The reference program is ten host operations: the constant one, its broadcast to 64 entries, the quotient by
  `lambda` (the reciprocal singular values), the product `norm_adj @ item_sv`, the transpose of `user_sv`, the
  product `user_svᵀ @ adj`, two broadcasts carrying the reciprocals to every user row, the entrywise product
  scaling the columns of `norm_adj @ item_sv`, and the final product. Read at an index `(u, i)`, each layout
  operation only renames the index it reads and each product is the sum over its contracted axis, so the value
  written at `(u, i)` is
      ∑ k, (∑ i', norm_adj[u, i'] · item_sv[i', k]) · (1 / lambda[k]) · (∑ u', user_sv[u', k] · adj[u', i]),
  the rating formula of the specification.
-/
import proofs.«105441_j37701222924909_1_alg».proof.Proof.Gen.ReferenceIdeal.Read
import proofs.«105441_j37701222924909_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The broadcast reciprocals at `(u, k)`: one over `lambda[k]`, whatever the user row. -/
theorem v6_at (x0 : (⟨S64, .f32⟩ : BufTy).Contents (Elt Ideal)) (u : Fin 10000) (k : Fin 64) :
    val_main_v6 (F := Ideal) x0 (ix2 u k) = Cert.Spec.invLam x0 k := by
  rw [val_main_v6_apply, val_main_v5_apply, val_main_v1_apply, val_main_v0_apply, val_main_cst_apply]
  have hi : idx_main_v5 (idx_main_v6 (ix2 u k)) = ix1 k :=
    funext fun a => Fin.ext (by match a with | ⟨0, _⟩ => rfl)
  rw [hi]
  rfl

/-- `(norm_adj @ item_sv)[u, k]`: the sum over the items. -/
theorem v2_at (x2 : (⟨S12000x64, .f32⟩ : BufTy).Contents (Elt Ideal)) (x4 : (⟨S10000x12000, .f32⟩ : BufTy).Contents (Elt Ideal))
    (u : Fin 10000) (k : Fin 64) :
    val_main_v2 (F := Ideal) x2 x4 (ix2 u k) = Cert.Spec.left x4 x2 u k := by
  rw [val_main_v2_apply]
  unfold Cert.Spec.left
  refine Finset.sum_congr rfl fun i' _ => ?_
  have hl : lidx_main_v2 (ix2 u k) i' = ix2 u i' :=
    funext fun a => Fin.ext (by match a with | ⟨0, _⟩ => rfl | ⟨1, _⟩ => rfl)
  have hr : ridx_main_v2 (ix2 u k) i' = ix2 i' k :=
    funext fun a => Fin.ext (by match a with | ⟨0, _⟩ => rfl | ⟨1, _⟩ => rfl)
  rw [hl, hr]

/-- The scaled left factor at `(u, k)`. -/
theorem v7_at (x0 : (⟨S64, .f32⟩ : BufTy).Contents (Elt Ideal)) (x2 : (⟨S12000x64, .f32⟩ : BufTy).Contents (Elt Ideal))
    (x4 : (⟨S10000x12000, .f32⟩ : BufTy).Contents (Elt Ideal)) (u : Fin 10000) (k : Fin 64) :
    val_main_v7 (F := Ideal) x0 x2 x4 (ix2 u k) = Cert.Spec.leftScaled x0 x4 x2 u k := by
  rw [val_main_v7_apply, v2_at, v6_at]
  rfl

/-- `(user_svᵀ @ adj)[k, i]`: the sum over the user rows, the transpose read at the swapped index. -/
theorem v4_at (x1 : (⟨S10000x64, .f32⟩ : BufTy).Contents (Elt Ideal)) (x3 : (⟨S10000x12000, .f32⟩ : BufTy).Contents (Elt Ideal))
    (k : Fin 64) (i : Fin 12000) :
    val_main_v4 (F := Ideal) x1 x3 (ix2 k i) = Cert.Spec.right x1 x3 k i := by
  rw [val_main_v4_apply]
  unfold Cert.Spec.right
  refine Finset.sum_congr rfl fun u' _ => ?_
  rw [val_main_v3_apply]
  have hl : idx_main_v3 (lidx_main_v4 (ix2 k i) u') = ix2 u' k :=
    funext fun a => Fin.ext (by match a with | ⟨0, _⟩ => rfl | ⟨1, _⟩ => rfl)
  have hr : ridx_main_v4 (ix2 k i) u' = ix2 u' i :=
    funext fun a => Fin.ext (by match a with | ⟨0, _⟩ => rfl | ⟨1, _⟩ => rfl)
  rw [hl, hr]

/-- The reference's result is the rating matrix. -/
theorem val_eq_rating (x0 : (⟨S64, .f32⟩ : BufTy).Contents (Elt Ideal)) (x1 : (⟨S10000x64, .f32⟩ : BufTy).Contents (Elt Ideal)) (x2 : (⟨S12000x64, .f32⟩ : BufTy).Contents (Elt Ideal)) (x3 x4 : (⟨S10000x12000, .f32⟩ : BufTy).Contents (Elt Ideal)) :
    Cert.ReferenceIdeal.Read.val_main_v8 (F := Ideal) x0 x1 x2 x3 x4 = Cert.Spec.rating x0 x1 x2 x3 x4 := by
  funext j
  obtain ⟨u, i, rfl⟩ : ∃ (u : Fin 10000) (i : Fin 12000), j = ix2 u i := ⟨j 0, j 1, eq_ix2 j⟩
  rw [Cert.Spec.rating_apply, val_main_v8_apply]
  refine Finset.sum_congr rfl fun k _ => ?_
  have hl : lidx_main_v8 (ix2 u i) k = ix2 u k :=
    funext fun a => Fin.ext (by match a with | ⟨0, _⟩ => rfl | ⟨1, _⟩ => rfl)
  have hr : ridx_main_v8 (ix2 u i) k = ix2 k i :=
    funext fun a => Fin.ext (by match a with | ⟨0, _⟩ => rfl | ⟨1, _⟩ => rfl)
  rw [hl, hr, v7_at, v4_at]

end Cert.ReferenceIdeal.RefValue

end
-- ==== Proof.lean ====
/-
  The certificate of the SVD rating reconstruction: `rating = (norm_adj @ item_sv · (1/lambda)) @ (user_svᵀ @ adj)`
  as three pipelined pallas_calls, against the same formula computed by ten host operations.

  Frames. Both printed kernel programs (the word-level one and its idealization: one text read at two float
  instances) run one host stretch and three calls; each call is entered with every unscoped buffer at known contents
  and left with only its output array changed, so the run terminates, nothing faults, and the five arguments end as
  launched. The reference has no kernel: its frame is its run with the result dropped.
  Preservation. The ideal pass rewrote nothing, so there is nothing to preserve.
  Equality at the ideal instance. A change of float format is the identity and a product into a zero accumulator is the
  plain sum of products, so the first call leaves `(norm_adj @ item_sv)[u, k] · (1/lambda[k])`, the third the product of
  what the first two left, and the second — which adds one 200-row tile's share of `user_svᵀ @ adj` per grid point into
  a scratch it zeroes at the first point and copies out at the last — leaves the fifty shares added up. That is the
  whole sum over the 10000 user rows because addition on the extended reals is commutative and associative: no
  finiteness of the inputs is used. The reference's ten operations, read at an index, are the same formula.
-/
import proofs.«105441_j37701222924909_1_alg».proof.Defs
import proofs.«105441_j37701222924909_1_alg».proof.Proof.Gen.Kernel
import proofs.«105441_j37701222924909_1_alg».proof.Proof.Gen.KernelIdeal
import proofs.«105441_j37701222924909_1_alg».proof.Proof.Gen.ReferenceIdeal
import proofs.«105441_j37701222924909_1_alg».proof.Proof.Gen.Pre_finite_inputs
import proofs.«105441_j37701222924909_1_alg».proof.Proof.K_Run
import proofs.«105441_j37701222924909_1_alg».proof.Proof.KI_Value
import proofs.«105441_j37701222924909_1_alg».proof.Proof.RefValue

noncomputable section

namespace Cert.Proof

open Idealize.ShloMosaic Idealize.SL.Sem

/-- The word-level kernel program runs and leaves its arguments as launched. -/
theorem frame_kernel : Cert.frame_Kernel := fun m ρ _ => Cert.Kernel.Frame.frame m ρ

/-- So does its idealization. -/
theorem frame_kernelIdeal : Cert.frame_KernelIdeal := fun m ρ _ => Cert.KernelIdeal.Frame.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the rating matrix of those arguments. -/
theorem algebraic : Cert.algebraic_KernelIdeal_ReferenceIdeal := by
  intro m ρ m' ρ' _ hagree
  refine ⟨fun c => Cert.Spec.rating (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Frame.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.val_eq_rating,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
